-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x100000 : Shape := ⟨2, ![1024, 100000]⟩
abbrev S100000x32 : Shape := ⟨2, ![100000, 32]⟩
abbrev S_ : Shape := ⟨0, ![]⟩

class Facts : Prop where
  bcast_S_S1024x100000 : S_.BroadcastsInDim S1024x100000 (![] : Fin 0 → Fin S1024x100000.rank)
  reducesTo_S1024x100000_S_d0_1 : S1024x100000.ReducesTo [0, 1] S_
  h_S_ : 0 < S_.numel
  bcast_S_S100000x32 : S_.BroadcastsInDim S100000x32 (![] : Fin 0 → Fin S100000x32.rank)
  reducesTo_S100000x32_S_d0_1 : S100000x32.ReducesTo [0, 1] S_

variable [Facts]

def fn {F : FTy → Type} [FloatOps F] (main_arg0 : FVec F S1024x100000 .f32) (main_arg1 : FVec F S100000x32 .f32) : IVec S_ 1 :=
  let main_v0 : FVec F S1024x100000 .f32 := Host.absf main_arg0
  let main_cst : FVec F S_ .f32 := constant S_ .f32 0x7F800000#32
  let main_v1 : FVec F S1024x100000 .f32 := broadcastInDim S1024x100000 ![] bcast_S_S1024x100000 main_cst
  let main_v2 : IVec S1024x100000 1 := cmpf .olt main_v0 main_v1
  let main_c : IVec S_ 1 := constantI S_ 1 1#1
  let main_v3 : IVec S_ 1 := (fun x v => Host.reduce IntOp.andi x v reducesTo_S1024x100000_S_d0_1 h_S_) main_v2 main_c
  let main_v4 : FVec F S100000x32 .f32 := Host.absf main_arg1
  let main_cst_0 : FVec F S_ .f32 := constant S_ .f32 0x7F800000#32
  let main_v5 : FVec F S100000x32 .f32 := broadcastInDim S100000x32 ![] bcast_S_S100000x32 main_cst_0
  let main_v6 : IVec S100000x32 1 := cmpf .olt main_v4 main_v5
  let main_c_1 : IVec S_ 1 := constantI S_ 1 1#1
  let main_v7 : IVec S_ 1 := (fun x v => Host.reduce IntOp.andi x v reducesTo_S100000x32_S_d0_1 h_S_) main_v6 main_c_1
  let main_v8 : IVec S_ 1 := andi main_v3 main_v7
  main_v8
-- ==== Kernel.lean ====
abbrev S1024x100000 : Shape := ⟨2, ![1024, 100000]⟩
abbrev S100000x32 : Shape := ⟨2, ![100000, 32]⟩
abbrev S100000x1024 : Shape := ⟨2, ![100000, 1024]⟩
abbrev S32x100000 : Shape := ⟨2, ![32, 100000]⟩
abbrev S32x1024 : Shape := ⟨2, ![32, 1024]⟩
abbrev S32x2560 : Shape := ⟨2, ![32, 2560]⟩
abbrev S2560x1024 : Shape := ⟨2, ![2560, 1024]⟩
abbrev S1024x32 : Shape := ⟨2, ![1024, 32]⟩

abbrev nBuf : Space → Nat
  | .hbm => 6
  | .vmem => 5
  | .smem => 0
  | _ => 0

abbrev bufTy : (tb : Table) → Fin (tcTables nBuf tb) → BufTy
  | .hbm, ⟨0, _⟩ => ⟨S1024x100000, .f32⟩
  | .hbm, ⟨1, _⟩ => ⟨S100000x32, .f32⟩
  | .hbm, ⟨2, _⟩ => ⟨S100000x1024, .f32⟩
  | .hbm, ⟨3, _⟩ => ⟨S32x100000, .f32⟩
  | .hbm, ⟨4, _⟩ => ⟨S32x1024, .f32⟩
  | .hbm, ⟨5, _⟩ => ⟨S1024x32, .f32⟩
  | .local _ .vmem, ⟨0, _⟩ => ⟨S32x2560, .f32⟩
  | .local _ .vmem, ⟨1, _⟩ => ⟨S32x2560, .f32⟩
  | .local _ .vmem, ⟨2, _⟩ => ⟨S2560x1024, .f32⟩
  | .local _ .vmem, ⟨3, _⟩ => ⟨S2560x1024, .f32⟩
  | .local _ .vmem, ⟨4, _⟩ => ⟨S32x1024, .f32⟩
  | _, _ => ⟨S1024x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![40], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c39_i32 : BitVec 32 := 39#32
  let v3 : BitVec 1 := Scalar.cmpi .slt arg0 c39_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c39_i32_2 : BitVec 32 := 39#32
  let v6 : BitVec 1 := Scalar.cmpi .eq arg0 c39_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2560x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  transposes_S1024x100000_S100000x1024_1_0 : S1024x100000.Transposes [1, 0] S100000x1024
  transposes_S100000x32_S32x100000_1_0 : S100000x32.Transposes [1, 0] S32x100000
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  inb_S32x2560_S32x2560_0_0 : ∀ a, (![0, 0] : Fin 2 → Nat) a + S32x2560.size a ≤ S32x2560.size a
  h_S32x2560 : 0 < S32x2560.numel
  shapeCasts_S32x2560_S32x2560 : S32x2560.ShapeCasts S32x2560
  bitsLt_bf16_f32 : FTy.bits .bf16 < FTy.bits .f32
  inb_S2560x1024_S2560x1024_0_0 : ∀ a, (![0, 0] : Fin 2 → Nat) a + S2560x1024.size a ≤ S2560x1024.size a
  h_S2560x1024 : 0 < S2560x1024.numel
  shapeCasts_S2560x1024_S2560x1024 : S2560x1024.ShapeCasts S2560x1024
  iota_S32x2560_d1_w32 : S32x2560.Iotas .tc 32 [1]
  iota_S2560x1024_d0_w32 : S2560x1024.Iotas .tc 32 [0]
  transposes_S32x1024_S1024x32_1_0 : S32x1024.Transposes [1, 0] S1024x32
  dot_S32x2560_S2560x1024_S32x1024_1_0_0_1_n_n_wf : DotDims.WF S32x2560 S2560x1024 S32x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S32x2560.size a < S32x100000.size a
  hwx0_0 : ∀ i : grid0.Coords, EltTy.bits .f32 = 32 ∨ (Rect.unit (s := S32x100000) (fun a => cc0_transform_0 i a * S32x2560.size a) (fun a => (Pipeline.Clip.of (cc0_transform_0 i a) (S32x2560.size a) (S32x100000.size a)).extent (S32x2560.size a)) fun a => Pipeline.Clip.inb (Pipeline.Clip.ok_of (hstart0_0 i a))).WholeWords (EltTy.packing .f32)
  hwxs0_0 : ∀ i : grid0.Coords, EltTy.bits .f32 = 32 ∨ (Rect.unit (s := S32x2560) (fun _ => 0) (fun a => (Pipeline.Clip.of (cc0_transform_0 i a) (S32x2560.size a) (S32x100000.size a)).extent (S32x2560.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2560x1024.size a < S100000x1024.size a
  hwx0_1 : ∀ i : grid0.Coords, EltTy.bits .f32 = 32 ∨ (Rect.unit (s := S100000x1024) (fun a => cc0_transform_1 i a * S2560x1024.size a) (fun a => (Pipeline.Clip.of (cc0_transform_1 i a) (S2560x1024.size a) (S100000x1024.size a)).extent (S2560x1024.size a)) fun a => Pipeline.Clip.inb (Pipeline.Clip.ok_of (hstart0_1 i a))).WholeWords (EltTy.packing .f32)
  hwxs0_1 : ∀ i : grid0.Coords, EltTy.bits .f32 = 32 ∨ (Rect.unit (s := S2560x1024) (fun _ => 0) (fun a => (Pipeline.Clip.of (cc0_transform_1 i a) (S2560x1024.size a) (S100000x1024.size a)).extent (S2560x1024.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x1024.size a ≤ S32x1024.size a
  hwx0_2 : ∀ i : grid0.Coords, EltTy.bits .f32 = 32 ∨ (Rect.block (s := S32x1024) S32x1024.size (cc0_transform_2 i) (hinb0_2 i)).WholeWords (EltTy.packing .f32)

variable [Facts₀]

def dot_S32x2560_S2560x1024_S32x1024_1_0_0_1_n_n : DotDims S32x2560 S2560x1024 S32x1024 where
  lhsContracting := [1]
  rhsContracting := [0]
  lhsNonContracting := [0]
  rhsNonContracting := [1]
  lhsBatch := []
  rhsBatch := []
  wf := dot_S32x2560_S2560x1024_S32x1024_1_0_0_1_n_n_wf

abbrev win0_0 : Pipeline.Window sig grid0 :=
  Pipeline.Window.ofSpecClip (Memref.whole main_v1) S32x2560.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v0) S2560x1024.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v2) S32x1024.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) && !(k0_cond3 i == 1#1) | ⟨_ + 3, h⟩ => absurd h (Nat.not_lt.2 (Nat.le_add_left _ _))

class Facts : Prop extends Facts₀ where

variable [Facts]
-- ==== ReferenceIdeal.lean ====
abbrev S1024x100000 : Shape := ⟨2, ![1024, 100000]⟩
abbrev S100000x32 : Shape := ⟨2, ![100000, 32]⟩
abbrev S1024x32 : Shape := ⟨2, ![1024, 32]⟩

abbrev nBuf : Space → Nat
  | .hbm => 3
  | .vmem => 0
  | .smem => 0
  | _ => 0

abbrev bufTy : (tb : Table) → Fin (tcTables nBuf tb) → BufTy
  | .hbm, ⟨0, _⟩ => ⟨S1024x100000, .f32⟩
  | .hbm, ⟨1, _⟩ => ⟨S100000x32, .f32⟩
  | .hbm, ⟨2, _⟩ => ⟨S1024x32, .f32⟩
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S1024x100000_S100000x32_S1024x32_1_0_0_1_n_n_wf : DotDims.WF S1024x100000 S100000x32 S1024x32 [1] [0] [0] [1] [] []

variable [Facts₀]

def dot_S1024x100000_S100000x32_S1024x32_1_0_0_1_n_n : DotDims S1024x100000 S100000x32 S1024x32 where
  lhsContracting := [1]
  rhsContracting := [0]
  lhsNonContracting := [0]
  rhsNonContracting := [1]
  lhsBatch := []
  rhsBatch := []
  wf := dot_S1024x100000_S100000x32_S1024x32_1_0_0_1_n_n_wf

class Facts : Prop extends Facts₀ where

variable [Facts]
-- ==== Proof.KernelRuns.lean ====
import proofs.«121381_g60258391163021_cont_9to1_m_978_18_alg».proof.Proof.Gen.Kernel.Frame
import proofs.«121381_g60258391163021_cont_9to1_m_978_18_alg».proof.Proof.Gen.Kernel.Skeleton

set_option maxRecDepth 16384

/-!
# The kernel body, run once per control case

The grid has forty points along the contraction axis. The body has three conditionals on the point `k`:
`k = 0` (the (32, 1024) accumulator block is reset to zero), `k < 39` (the product of the point's
(32, 2560) and (2560, 1024) blocks is added to the accumulator) and `k = 39` (the same, after both blocks
are masked to their first 160 contraction entries, the part of the last block that lies inside the arrays).
So a point is in exactly one of three cases: the first point (reset, then add), a middle point (add to what
the point before left), the last point (add the masked product to what the point before left).

Each theorem below runs the body in one case on whole staging memrefs — the two input blocks at given
contents, the accumulator at anything (first point) or at given contents (later points) — and returns the
list of pieces the body's stores leave in the accumulator's buffer, the inputs' buffers unchanged.
Everything is stated for any float instance.
-/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
/-- The first point (`k = 0`): the accumulator's buffer holds anything; the body resets it and adds the
    point's block product. -/
noncomputable def runFirst (c : Dev nD) (i : grid0.Coords)
    (arg1 : Memref sig .tc .vmem S32x2560 .f32) (harg1 : arg1.IsWhole)
    (arg2 : Memref sig .tc .vmem S2560x1024 .f32) (harg2 : arg2.IsWhole)
    (arg3 : Memref sig .tc .vmem S32x1024 .f32) (harg3 : arg3.IsWhole)
    (h1 : k0_cond1 i = 1#1) (h2 : k0_cond2 i = 1#1) (h3 : ¬ k0_cond3 i = 1#1)
    (x0 : Vec F S32x2560 .f32) (x1 : Vec F S2560x1024 .f32) :
    { L : List (View.Piece (Elt F) S32x1024 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)) -∗ K ⟨⟩))
          ⊢ wp frame (wpE (defs₀ (F := F)) Variants.none c none) E (cc0__mm_kernel i arg1 harg1 arg2 harg2 arg3 harg3) K } := by
  refine ⟨?_, fun E K => ?run⟩
  case run =>
    simp only [cc0__mm_kernel_eq_skeleton]; unfold cc0__mm_kernel_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact h1 | exact h2 | exact h3)
    sl_step
    iapply Hk
    isplitl [H0]
    · iexists _; isplitr; · ipureintro; exact harg1.read_unread _
      iexact H0
    isplitl [H1]
    · iexists _; isplitr; · ipureintro; exact harg2.read_unread _
      iexact H1
    iexists _; iexact H2

set_option maxHeartbeats 1000000 in
/-- A middle point (`0 < k < 39`): the accumulator's buffer holds `xo`, what the point before left; the
    body adds the point's block product to it. -/
noncomputable def runMiddle (c : Dev nD) (i : grid0.Coords)
    (arg1 : Memref sig .tc .vmem S32x2560 .f32) (harg1 : arg1.IsWhole)
    (arg2 : Memref sig .tc .vmem S2560x1024 .f32) (harg2 : arg2.IsWhole)
    (arg3 : Memref sig .tc .vmem S32x1024 .f32) (harg3 : arg3.IsWhole)
    (h1 : ¬ k0_cond1 i = 1#1) (h2 : k0_cond2 i = 1#1) (h3 : ¬ k0_cond3 i = 1#1)
    (x0 : Vec F S32x2560 .f32) (x1 : Vec F S2560x1024 .f32) (xo : Vec F S32x1024 .f32) :
    { L : List (View.Piece (Elt F) S32x1024 .f32) //
      ∀ (E : Set ℕ) (K : PUnit → sProp 𝕄),
        iprop(owns (c : Thread nD τ) arg1 fullShare x0 ∗ owns (c : Thread nD τ) arg2 fullShare x1
            ∗ owns (c : Thread nD τ) arg3 fullShare xo
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)) -∗ K ⟨⟩))
          ⊢ wp frame (wpE (defs₀ (F := F)) Variants.none c none) E (cc0__mm_kernel i arg1 harg1 arg2 harg2 arg3 harg3) K } := by
  refine ⟨?_, fun E K => ?run⟩
  case run =>
    simp only [cc0__mm_kernel_eq_skeleton]; unfold cc0__mm_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact h1 | exact h2 | exact h3)
    sl_step
    iapply Hk
    isplitl [H0]
    · iexists _; isplitr; · ipureintro; exact harg1.read_unread _
      iexact H0
    isplitl [H1]
    · iexists _; isplitr; · ipureintro; exact harg2.read_unread _
      iexact H1
    iexists _; iexact H2

set_option maxHeartbeats 1000000 in
/-- The last point (`k = 39`): the accumulator's buffer holds `xo`; the body adds the product of the two
    blocks masked to their first 160 contraction entries. -/
noncomputable def runLast (c : Dev nD) (i : grid0.Coords)
    (arg1 : Memref sig .tc .vmem S32x2560 .f32) (harg1 : arg1.IsWhole)
    (arg2 : Memref sig .tc .vmem S2560x1024 .f32) (harg2 : arg2.IsWhole)
    (arg3 : Memref sig .tc .vmem S32x1024 .f32) (harg3 : arg3.IsWhole)
    (h1 : ¬ k0_cond1 i = 1#1) (h2 : ¬ k0_cond2 i = 1#1) (h3 : k0_cond3 i = 1#1)
    (x0 : Vec F S32x2560 .f32) (x1 : Vec F S2560x1024 .f32) (xo : Vec F S32x1024 .f32) :
    { L : List (View.Piece (Elt F) S32x1024 .f32) //
      ∀ (E : Set ℕ) (K : PUnit → sProp 𝕄),
        iprop(owns (c : Thread nD τ) arg1 fullShare x0 ∗ owns (c : Thread nD τ) arg2 fullShare x1
            ∗ owns (c : Thread nD τ) arg3 fullShare xo
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)) -∗ K ⟨⟩))
          ⊢ wp frame (wpE (defs₀ (F := F)) Variants.none c none) E (cc0__mm_kernel i arg1 harg1 arg2 harg2 arg3 harg3) K } := by
  refine ⟨?_, fun E K => ?run⟩
  case run =>
    simp only [cc0__mm_kernel_eq_skeleton]; unfold cc0__mm_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact h1 | exact h2 | exact h3)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.Kernel.Hand

end
-- ==== Proof.KernelMask.lean ====
import proofs.«121381_g60258391163021_cont_9to1_m_978_18_alg».proof.Proof.Gen.Kernel.Skeleton
import proofs.«121381_g60258391163021_cont_9to1_m_978_18_alg».proof.Proof.Gen.Kernel.Points
import Idealize.ShloMosaic.Lib.Pipeline.Value
import Idealize.ShloMosaic.Lib.ValueIdx

set_option synthInstance.maxSize 4096

noncomputable section

namespace Cert.Kernel.Hand

open Cert.Kernel Cert.Kernel.Gen Idealize.ShloMosaic Idealize.ShloMosaic.ValueIdx

variable {F : FTy → Type} [FloatOps F]

/-- A 32-bit word holding a number below 2560 is below the word 160 in the signed order exactly when the number is
    below 160: both words are non-negative as signed integers, so the signed comparison is the comparison of the
    numbers. -/
theorem slt_160 (n : Nat) (hn : n < 2560) :
    IntOp.cmpi .slt (BitVec.ofNat 32 n) 160#32 = (if n < 160 then 1#1 else 0#1) := by
  have hx : (BitVec.ofNat 32 n).toInt = (n : Int) := by
    rw [BitVec.toInt_eq_toNat_of_lt (by rw [BitVec.toNat_ofNat]; omega), BitVec.toNat_ofNat]
    omega
  have hy : (160#32 : BitVec 32).toInt = 160 := by decide
  show BitVec.ofBool ((BitVec.ofNat 32 n).slt 160#32) = _
  rw [BitVec.slt_eq_decide, hx, hy]
  split
  · next h => rw [decide_eq_true (by omega)]; rfl
  · next h => rw [decide_eq_false (by omega)]; rfl

/-- At the last grid point the transfer into the first operand's staging block moves 32 rows and the first 160
    columns: the block's last axis is cut at the array's end, 100000 - 39 * 2560 = 160. -/
theorem xsize0_last : ∀ t : Fin grid0.N, t.val = 39 → ∀ a, win0_0.xsize (grid0.coords t) a = (![32, 160] : Fin 2 → Nat) a := by
  decide +kernel

/-- At the last grid point the transfer into the second operand's staging block moves the first 160 rows and all
    1024 columns: the block's first axis is cut at the array's end. -/
theorem xsize1_last : ∀ t : Fin grid0.N, t.val = 39 → ∀ a, win0_1.xsize (grid0.coords t) a = (![160, 1024] : Fin 2 → Nat) a := by
  decide +kernel

/-- Two fetches of the same block part into the first operand's staging block agree at every entry whose column
    is below 160, whatever the block held before: those entries are the ones the fetch moves. -/
theorem fill0_agree (t : Fin cfg0.N) (ht : t.val = 39)
    (d0 d0' : S32x2560.Idx → Elt F .f32) (g0 : (win0_0.xblock (grid0.coords t)).Idx → Elt F .f32)
    (j : S32x2560.Idx) (h : (j 1).val < 160) :
    win0_0.fill (grid0.coords t) d0 g0 j = win0_0.fill (grid0.coords t) d0' g0 j := by
  have hm : win0_0.moved (grid0.coords t) j = true :=
    (win0_0.moved_iff _ j).mpr fun a => by
      rw [xsize0_last t ht a]
      match a with
      | ⟨0, _⟩ => exact idx2_lt0 j
      | ⟨1, _⟩ => exact h
  unfold Pipeline.Window.fill
  rw [dif_pos hm, dif_pos hm]

/-- Two fetches of the same block part into the second operand's staging block agree at every entry whose row
    is below 160, whatever the block held before. -/
theorem fill1_agree (t : Fin cfg0.N) (ht : t.val = 39)
    (d1 d1' : S2560x1024.Idx → Elt F .f32) (g1 : (win0_1.xblock (grid0.coords t)).Idx → Elt F .f32)
    (j : S2560x1024.Idx) (h : (j 0).val < 160) :
    win0_1.fill (grid0.coords t) d1 g1 j = win0_1.fill (grid0.coords t) d1' g1 j := by
  have hm : win0_1.moved (grid0.coords t) j = true :=
    (win0_1.moved_iff _ j).mpr fun a => by
      rw [xsize1_last t ht a]
      match a with
      | ⟨0, _⟩ => exact h
      | ⟨1, _⟩ => exact idx2_lt1 j
  unfold Pipeline.Window.fill
  rw [dif_pos hm, dif_pos hm]

/-- A 32 x 2560 block masked to its first 160 columns (the zero word elsewhere) depends only on the block's
    entries in those columns. -/
theorem mask0_congr (z : F .f32) (a a' : Vec F S32x2560 .f32)
    (h : ∀ j : S32x2560.Idx, (j 1).val < 160 → a j = a' j) :
    (select (cmpi .slt (iota .tc S32x2560 32 [1] iota_S32x2560_d1_w32) (broadcast S32x2560 160#32))
      (shapeCast S32x2560 a shapeCasts_S32x2560_S32x2560) (broadcast S32x2560 z) : FVec F S32x2560 .f32)
    = select (cmpi .slt (iota .tc S32x2560 32 [1] iota_S32x2560_d1_w32) (broadcast S32x2560 160#32))
      (shapeCast S32x2560 a' shapeCasts_S32x2560_S32x2560) (broadcast S32x2560 z) := by
  rw [shapeCast_self, shapeCast_self]
  funext j
  show Scalar.select (IntOp.cmpi .slt (iota .tc S32x2560 32 [1] iota_S32x2560_d1_w32 j) 160#32) _ _
    = Scalar.select (IntOp.cmpi .slt (iota .tc S32x2560 32 [1] iota_S32x2560_d1_w32 j) 160#32) _ _
  rw [iota_single_apply, slt_160 _ (idx2_lt1 j)]
  by_cases hj : (j 1).val < 160
  · rw [if_pos hj, select_one, select_one]; exact h j hj
  · rw [if_neg hj, select_zero, select_zero]

/-- A 2560 x 1024 block masked to its first 160 rows (the zero word elsewhere) depends only on the block's
    entries in those rows. -/
theorem mask1_congr (z : F .f32) (a a' : Vec F S2560x1024 .f32)
    (h : ∀ j : S2560x1024.Idx, (j 0).val < 160 → a j = a' j) :
    (select (cmpi .slt (iota .tc S2560x1024 32 [0] iota_S2560x1024_d0_w32) (broadcast S2560x1024 160#32))
      (shapeCast S2560x1024 a shapeCasts_S2560x1024_S2560x1024) (broadcast S2560x1024 z) : FVec F S2560x1024 .f32)
    = select (cmpi .slt (iota .tc S2560x1024 32 [0] iota_S2560x1024_d0_w32) (broadcast S2560x1024 160#32))
      (shapeCast S2560x1024 a' shapeCasts_S2560x1024_S2560x1024) (broadcast S2560x1024 z) := by
  rw [shapeCast_self, shapeCast_self]
  funext j
  show Scalar.select (IntOp.cmpi .slt (iota .tc S2560x1024 32 [0] iota_S2560x1024_d0_w32 j) 160#32) _ _
    = Scalar.select (IntOp.cmpi .slt (iota .tc S2560x1024 32 [0] iota_S2560x1024_d0_w32 j) 160#32) _ _
  rw [iota_single_apply, slt_160 _ (idx2_lt0 j)]
  by_cases hj : (j 0).val < 160
  · rw [if_pos hj, select_one, select_one]; exact h j hj
  · rw [if_neg hj, select_zero, select_zero]

/-- At the last grid point the two input blocks overhang their arrays: only contraction entries 0..159 are inside. The payload selects zero at entries 160 and above of both operands, so it does not depend on what the staging buffers hold there. -/
theorem pay3_filler_irrelevant (t : Fin cfg0.N) (ht : t.val = 39)
    (d0 d0' : S32x2560.Idx → Elt F .f32) (g0 : (win0_0.xblock (grid0.coords t)).Idx → Elt F .f32)
    (d1 d1' : S2560x1024.Idx → Elt F .f32) (g1 : (win0_1.xblock (grid0.coords t)).Idx → Elt F .f32)
    (acc : Vec F S32x1024 .f32) :
    k0_pay3 (F := F) (win0_0.fill (grid0.coords t) d0 g0) (win0_1.fill (grid0.coords t) d1 g1) acc
      = k0_pay3 (F := F) (win0_0.fill (grid0.coords t) d0' g0) (win0_1.fill (grid0.coords t) d1' g1) acc := by
  unfold k0_pay3
  dsimp only
  rw [mask0_congr _ (win0_0.fill (grid0.coords t) d0 g0) (win0_0.fill (grid0.coords t) d0' g0) (fill0_agree t ht d0 d0' g0),
    mask1_congr _ (win0_1.fill (grid0.coords t) d1 g1) (win0_1.fill (grid0.coords t) d1' g1) (fill1_agree t ht d1 d1' g1)]

end Cert.Kernel.Hand

end
-- ==== Proof.KernelData.lean ====
import proofs.«121381_g60258391163021_cont_9to1_m_978_18_alg».proof.Proof.KernelRuns
import proofs.«121381_g60258391163021_cont_9to1_m_978_18_alg».proof.Proof.KernelMask
import Idealize.ShloMosaic.Lib.Pipeline.Value

set_option maxRecDepth 16384

/-!
# The kernel's proof data

The one pallas_call walks forty points along the contraction axis. Windows 0 and 1 stage the point's
(32, 2560) block of the transposed second operand and (2560, 1024) block of the transposed first operand;
at the last point both blocks overhang their arrays (only contraction entries 0..159 are inside), and what a
staging buffer holds past the array's end is not determined. Window 2 is the (32, 1024) accumulator: one
block, the whole array, carried from point to point in its staging buffer and written back after the last.

What each staging buffer holds after the body at each point:
* an input's buffer: its block, on the entries inside the array (all the obligation states of it);
* the accumulator's: `accAt`, by recursion on the point — the reset-and-add payload at point 0, the add
  payload over the previous contents at points 1..38, the masked-add payload at point 39.
The accumulator's contents must be a function of the point alone, although the body is handed input buffers
whose entries past the array's end are arbitrary: at points 0..38 no block is cut, so there are no such
entries; at point 39 the payload selects zero over them (`pay3_filler_irrelevant`).
Everything is stated for any float instance.
-/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three conditions, decided over the grid -/

/-- The reset is taken at point 0 only, -/
theorem first_iff : ∀ t : Fin cfg0.N, k0_cond1 (grid0.coords t) = 1#1 ↔ t.val = 0 :=
  (by decide +kernel : ∀ t : Fin grid0.N, k0_cond1 (grid0.coords t) = 1#1 ↔ t.val = 0)
/-- the plain accumulation at points 0..38, -/
theorem below_last_iff : ∀ t : Fin cfg0.N, k0_cond2 (grid0.coords t) = 1#1 ↔ t.val < 39 :=
  (by decide +kernel : ∀ t : Fin grid0.N, k0_cond2 (grid0.coords t) = 1#1 ↔ t.val < 39)
/-- the masked accumulation at point 39 only. -/
theorem last_iff : ∀ t : Fin cfg0.N, k0_cond3 (grid0.coords t) = 1#1 ↔ t.val = 39 :=
  (by decide +kernel : ∀ t : Fin grid0.N, k0_cond3 (grid0.coords t) = 1#1 ↔ t.val = 39)
/-- So the body stores into the accumulator at every point: it is idle nowhere. -/
theorem acc_live : ∀ t : Fin cfg0.N, idle0 2 (grid0.coords t) = false :=
  (by decide +kernel : ∀ t : Fin grid0.N, idle0 2 (grid0.coords t) = false)
/-- (the same, as the pipeline's configuration spells it) -/
theorem acc_live_cfg (t : Fin cfg0.N) : cfg0.idle 2 (cfg0.grid.coords t) = false := acc_live t
/-- No block of either input is cut before the last point. -/
theorem uncut_bt : ∀ t : Fin cfg0.N, t.val < 39 → (cfg0.win 0).clipped (cfg0.grid.coords t) = false :=
  (by decide +kernel : ∀ t : Fin grid0.N, t.val < 39 → win0_0.clipped (grid0.coords t) = false)
theorem uncut_at : ∀ t : Fin cfg0.N, t.val < 39 → (cfg0.win 1).clipped (cfg0.grid.coords t) = false :=
  (by decide +kernel : ∀ t : Fin grid0.N, t.val < 39 → win0_1.clipped (grid0.coords t) = false)

/-! ## What each case leaves in the accumulator's buffer -/

/-- One staging buffer of the accumulator, through which its contents are stated. -/
abbrev accView : View sig .tc .vmem S32x1024 .f32 := (Memref.whole cc0_stg2_0 : Memref sig .tc .vmem S32x1024 .f32).view

theorem cover_first (c : Dev nD) (i : grid0.Coords)
    (arg1 : Memref sig .tc .vmem S32x2560 .f32) (harg1 : arg1.IsWhole)
    (arg2 : Memref sig .tc .vmem S2560x1024 .f32) (harg2 : arg2.IsWhole)
    (arg3 : Memref sig .tc .vmem S32x1024 .f32) (harg3 : arg3.IsWhole)
    (h1 : k0_cond1 i = 1#1) (h2 : k0_cond2 i = 1#1) (h3 : ¬ k0_cond3 i = 1#1)
    (x0 : Vec F S32x2560 .f32) (x1 : Vec F S2560x1024 .f32) (y : S32x1024.Idx) :
    ∃ pc ∈ (runFirst c i arg1 harg1 arg2 harg2 arg3 harg3 h1 h2 h3 x0 x1).1, y ∈ pc.1.set :=
  View.cover_of_tiledL (runFirst c i arg1 harg1 arg2 harg2 arg3 harg3 h1 h2 h3 x0 x1).1 S32x1024.size (by sl_kernel_rfl) y

theorem cover_middle (c : Dev nD) (i : grid0.Coords)
    (arg1 : Memref sig .tc .vmem S32x2560 .f32) (harg1 : arg1.IsWhole)
    (arg2 : Memref sig .tc .vmem S2560x1024 .f32) (harg2 : arg2.IsWhole)
    (arg3 : Memref sig .tc .vmem S32x1024 .f32) (harg3 : arg3.IsWhole)
    (h1 : ¬ k0_cond1 i = 1#1) (h2 : k0_cond2 i = 1#1) (h3 : ¬ k0_cond3 i = 1#1)
    (x0 : Vec F S32x2560 .f32) (x1 : Vec F S2560x1024 .f32) (xo : Vec F S32x1024 .f32) (y : S32x1024.Idx) :
    ∃ pc ∈ (runMiddle c i arg1 harg1 arg2 harg2 arg3 harg3 h1 h2 h3 x0 x1 xo).1, y ∈ pc.1.set :=
  View.cover_of_tiledL (runMiddle c i arg1 harg1 arg2 harg2 arg3 harg3 h1 h2 h3 x0 x1 xo).1 S32x1024.size (by sl_kernel_rfl) y

theorem cover_last (c : Dev nD) (i : grid0.Coords)
    (arg1 : Memref sig .tc .vmem S32x2560 .f32) (harg1 : arg1.IsWhole)
    (arg2 : Memref sig .tc .vmem S2560x1024 .f32) (harg2 : arg2.IsWhole)
    (arg3 : Memref sig .tc .vmem S32x1024 .f32) (harg3 : arg3.IsWhole)
    (h1 : ¬ k0_cond1 i = 1#1) (h2 : ¬ k0_cond2 i = 1#1) (h3 : k0_cond3 i = 1#1)
    (x0 : Vec F S32x2560 .f32) (x1 : Vec F S2560x1024 .f32) (xo : Vec F S32x1024 .f32) (y : S32x1024.Idx) :
    ∃ pc ∈ (runLast c i arg1 harg1 arg2 harg2 arg3 harg3 h1 h2 h3 x0 x1 xo).1, y ∈ pc.1.set :=
  View.cover_of_tiledL (runLast c i arg1 harg1 arg2 harg2 arg3 harg3 h1 h2 h3 x0 x1 xo).1 S32x1024.size (by sl_kernel_rfl) y

/-- At the first point the stores leave the add payload over the reset payload: zero plus the block product. -/
theorem left_first (c : Dev nD) (i : grid0.Coords)
    (arg1 : Memref sig .tc .vmem S32x2560 .f32) (harg1 : arg1.IsWhole)
    (arg2 : Memref sig .tc .vmem S2560x1024 .f32) (harg2 : arg2.IsWhole)
    (arg3 : Memref sig .tc .vmem S32x1024 .f32) (harg3 : arg3.IsWhole)
    (h1 : k0_cond1 i = 1#1) (h2 : k0_cond2 i = 1#1) (h3 : ¬ k0_cond3 i = 1#1)
    (x0 : Vec F S32x2560 .f32) (x1 : Vec F S2560x1024 .f32) :
    accView.read (Elt F) (accView.writes (Elt F) accView.junk (runFirst c i arg1 harg1 arg2 harg2 arg3 harg3 h1 h2 h3 x0 x1).1)
      = k0_pay2 (k0_pay1 (F := F)) x0 x1 := by
  have hz : (![0, 0] : Fin 2 → Nat) = fun _ => 0 := funext fun a => by fin_cases a <;> rfl
  rw [View.read_writes_eq_canon _ _ _ (cover_first c i arg1 harg1 arg2 harg2 arg3 harg3 h1 h2 h3 x0 x1)]
  unfold runFirst
  dsimp only
  sl_unfold_words
  rw [View.canon_cons_unit_zero (S := S32x1024) hz, View.readCov_unit_zero (S := S32x1024) _ hz]
  simp only [View.readAt_eq_ld, harg1.read_unread, harg2.read_unread,
    View.ld_unit_zero (S := S32x2560) hz, View.ld_unit_zero (S := S2560x1024) hz]

/-- At a middle point they leave the add payload over what the buffer held. -/
theorem left_middle (c : Dev nD) (i : grid0.Coords)
    (arg1 : Memref sig .tc .vmem S32x2560 .f32) (harg1 : arg1.IsWhole)
    (arg2 : Memref sig .tc .vmem S2560x1024 .f32) (harg2 : arg2.IsWhole)
    (arg3 : Memref sig .tc .vmem S32x1024 .f32) (harg3 : arg3.IsWhole)
    (h1 : ¬ k0_cond1 i = 1#1) (h2 : k0_cond2 i = 1#1) (h3 : ¬ k0_cond3 i = 1#1)
    (x0 : Vec F S32x2560 .f32) (x1 : Vec F S2560x1024 .f32) (xo : Vec F S32x1024 .f32) :
    accView.read (Elt F) (accView.writes (Elt F) accView.junk (runMiddle c i arg1 harg1 arg2 harg2 arg3 harg3 h1 h2 h3 x0 x1 xo).1)
      = k0_pay2 xo x0 x1 := by
  have hz : (![0, 0] : Fin 2 → Nat) = fun _ => 0 := funext fun a => by fin_cases a <;> rfl
  rw [View.read_writes_eq_canon _ _ _ (cover_middle c i arg1 harg1 arg2 harg2 arg3 harg3 h1 h2 h3 x0 x1 xo)]
  unfold runMiddle
  dsimp only
  sl_unfold_words
  rw [View.canon_unit_zero (S := S32x1024) hz]
  simp only [View.readAt_eq_ld, harg1.read_unread, harg2.read_unread, harg3.read_unread,
    View.ld_unit_zero (S := S32x1024) hz, View.ld_unit_zero (S := S32x2560) hz, View.ld_unit_zero (S := S2560x1024) hz]

/-- At the last point they leave the masked-add payload over what the buffer held. -/
theorem left_last (c : Dev nD) (i : grid0.Coords)
    (arg1 : Memref sig .tc .vmem S32x2560 .f32) (harg1 : arg1.IsWhole)
    (arg2 : Memref sig .tc .vmem S2560x1024 .f32) (harg2 : arg2.IsWhole)
    (arg3 : Memref sig .tc .vmem S32x1024 .f32) (harg3 : arg3.IsWhole)
    (h1 : ¬ k0_cond1 i = 1#1) (h2 : ¬ k0_cond2 i = 1#1) (h3 : k0_cond3 i = 1#1)
    (x0 : Vec F S32x2560 .f32) (x1 : Vec F S2560x1024 .f32) (xo : Vec F S32x1024 .f32) :
    accView.read (Elt F) (accView.writes (Elt F) accView.junk (runLast c i arg1 harg1 arg2 harg2 arg3 harg3 h1 h2 h3 x0 x1 xo).1)
      = k0_pay3 x0 x1 xo := by
  have hz : (![0, 0] : Fin 2 → Nat) = fun _ => 0 := funext fun a => by fin_cases a <;> rfl
  rw [View.read_writes_eq_canon _ _ _ (cover_last c i arg1 harg1 arg2 harg2 arg3 harg3 h1 h2 h3 x0 x1 xo)]
  unfold runLast
  dsimp only
  sl_unfold_words
  rw [View.canon_unit_zero (S := S32x1024) hz]
  simp only [View.readAt_eq_ld, harg1.read_unread, harg2.read_unread, harg3.read_unread,
    View.ld_unit_zero (S := S32x1024) hz, View.ld_unit_zero (S := S32x2560) hz, View.ld_unit_zero (S := S2560x1024) hz]

/-! ## The input blocks -/

/-- Point `t`'s block of the transposed second operand as its staging buffer holds it, the entries past the
    array's end (at the last point) filled with the zero word: the proof's choice, which nothing reads. -/
def btBlock (c : Dev nD) (t : Fin cfg0.N) : S32x2560.Idx → Elt F .f32 :=
  win0_0.fill (grid0.coords t) (fun _ => Scalar.ofBits .f32 0#32) (iblk m c 0 t)
/-- Point `t`'s block of the transposed first operand, likewise. -/
def atBlock (c : Dev nD) (t : Fin cfg0.N) : S2560x1024.Idx → Elt F .f32 :=
  win0_1.fill (grid0.coords t) (fun _ => Scalar.ofBits .f32 0#32) (iblk m c 1 t)

/-- Before the last point a block lies inside its array: its staging buffer is the block, whatever it held. -/
theorem bt_fill_uncut (c : Dev nD) (t : Fin cfg0.N) (ht : t.val < 39) (d : S32x2560.Idx → Elt F .f32) :
    win0_0.fill (grid0.coords t) d (iblk m c 0 t) = btBlock m c t := by
  unfold btBlock
  exact Pipeline.fill_of_clip_none (cfg := cfg0) 0 (grid0.coords t) (((cfg0.win 0).clipped_eq_false_iff _).mp (uncut_bt t ht)) _ _ _
theorem at_fill_uncut (c : Dev nD) (t : Fin cfg0.N) (ht : t.val < 39) (d : S2560x1024.Idx → Elt F .f32) :
    win0_1.fill (grid0.coords t) d (iblk m c 1 t) = atBlock m c t := by
  unfold atBlock
  exact Pipeline.fill_of_clip_none (cfg := cfg0) 1 (grid0.coords t) (((cfg0.win 1).clipped_eq_false_iff _).mp (uncut_at t ht)) _ _ _

/-! ## The accumulator, point by point -/

/-- What the accumulator's staging buffer holds after the body at point `n`: zero plus the first block
    product; then, point after point, the previous contents plus the point's block product — at the last
    point the product of the blocks masked to the entries inside the arrays. -/
def accAt (c : Dev nD) : (n : ℕ) → n < cfg0.N → Vec F S32x1024 .f32
  | 0, hn => k0_pay2 (k0_pay1 (F := F)) (btBlock m c ⟨0, hn⟩) (atBlock m c ⟨0, hn⟩)
  | n + 1, hn =>
    if n + 1 < 39 then k0_pay2 (accAt c n (Nat.lt_of_succ_lt hn)) (btBlock m c ⟨n + 1, hn⟩) (atBlock m c ⟨n + 1, hn⟩)
    else k0_pay3 (btBlock m c ⟨n + 1, hn⟩) (atBlock m c ⟨n + 1, hn⟩) (accAt c n (Nat.lt_of_succ_lt hn))

theorem accAt_first (c : Dev nD) (t : Fin cfg0.N) (h0 : t.val = 0) :
    accAt m c t.val t.isLt = k0_pay2 (k0_pay1 (F := F)) (btBlock m c t) (atBlock m c t) := by
  obtain ⟨n, hn⟩ := t
  cases n with
  | zero => rfl
  | succ n => exact absurd h0 (Nat.succ_ne_zero n)

theorem accAt_middle (c : Dev nD) (t : Fin cfg0.N) (h0 : t.val ≠ 0) (h1 : t.val < 39) :
    accAt m c t.val t.isLt
      = k0_pay2 (accAt m c (t.val - 1) (Nat.lt_of_le_of_lt (Nat.sub_le _ _) t.isLt)) (btBlock m c t) (atBlock m c t) := by
  obtain ⟨n, hn⟩ := t
  cases n with
  | zero => exact absurd rfl h0
  | succ n => exact (if_pos h1).trans rfl

theorem accAt_last (c : Dev nD) (t : Fin cfg0.N) (h0 : t.val ≠ 0) (h1 : ¬ t.val < 39) :
    accAt m c t.val t.isLt
      = k0_pay3 (btBlock m c t) (atBlock m c t) (accAt m c (t.val - 1) (Nat.lt_of_le_of_lt (Nat.sub_le _ _) t.isLt)) := by
  obtain ⟨n, hn⟩ := t
  cases n with
  | zero => exact absurd rfl h0
  | succ n => exact (if_neg h1).trans rfl

/-! ## The proof data -/

/-- The proof data of the pipeline on core `c`: the arrays as the region finds them; after the body at point
    `t` each input's buffer at its block and the accumulator's at `accAt`; the class's invariant; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => btBlock m c t
    | ⟨1, _⟩ => atBlock m c t
    | ⟨2, _⟩ => accAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]
theorem after_bt (c : Dev nD) (t : Fin cfg0.N) : (dats m 0 c).after 0 t = btBlock m c t := by dsimp only [dats]
theorem after_at (c : Dev nD) (t : Fin cfg0.N) : (dats m 0 c).after 1 t = atBlock m c t := by dsimp only [dats]
theorem after_acc (c : Dev nD) (t : Fin cfg0.N) : (dats m 0 c).after 2 t = accAt m c t.val t.isLt := by dsimp only [dats]

/-- Both inputs are fetched at every point: the body finds the block, on the entries inside the array, over
    whatever the buffer held. -/
theorem before_bt (c : Dev nD) (t : Fin cfg0.N) (d) :
    (dats m 0 c).before 0 t d = win0_0.fill (grid0.coords t) d (iblk m c 0 t) := by
  rw [(dats m 0 c).before_fetched 0 t (fetch0_0 t) d]
  unfold Dat.fetched Dat.blockOf iblk; rw [A_eq]
theorem before_at (c : Dev nD) (t : Fin cfg0.N) (d) :
    (dats m 0 c).before 1 t d = win0_1.fill (grid0.coords t) d (iblk m c 1 t) := by
  rw [(dats m 0 c).before_fetched 1 t (fetch0_1 t) d]
  unfold Dat.fetched Dat.blockOf iblk; rw [A_eq]
/-- The accumulator's buffer is fresh at the first point, -/
theorem before_acc_first (c : Dev nD) (t : Fin cfg0.N) (h0 : t.val = 0) (d) : (dats m 0 c).before 2 t d = d :=
  (dats m 0 c).before_out_reset 2 rfl t (.inl h0) d
/-- and afterwards holds what the body left at the point before: it is written back after the last point only. -/
theorem before_acc_later (c : Dev nD) (t : Fin cfg0.N) (h0 : t.val ≠ 0) (d) :
    (dats m 0 c).before 2 t d = accAt m c (t.val - 1) (Nat.lt_of_le_of_lt (Nat.sub_le _ _) t.isLt) := by
  have hN : t.val < 40 := lt_of_lt_of_eq t.isLt (show cfg0.N = 40 from N_0)
  rw [(dats m 0 c).before_of_pos 2 t h0 ((cfg0.win 2).fetch_out rfl t),
    if_neg (by rw [Bool.not_eq_true]; exact Bool.eq_false_iff.mpr fun h => by have := (flush0_2 _).mp h; dsimp only at this; omega)]
  unfold Dat.left
  rw [acc_live_cfg]
  unfold Dat.kept
  rw [Pipeline.fill_of_clip_none (cfg := cfg0) 2 _ (fun _ => rfl) d ((dats m 0 c).after 2 _), Window.fill_cut]
  dsimp only [dats]

end Cert.Kernel.Hand

end
-- ==== Proof.KernelFrame.lean ====
import proofs.«121381_g60258391163021_cont_9to1_m_978_18_alg».proof.Proof.KernelData

set_option maxRecDepth 16384

/-!
# The frame of the kernel: body obligation, run, frame

The body at a grid point is handed the two input staging buffers holding their blocks over arbitrary fillers
(the blocks were just fetched; past the array's end, at the last point, a buffer holds anything) and the
accumulator's buffer — fresh at the first point, else at what the point before left. The point is in exactly
one of the three control cases; that case's run applies, and what it leaves in the accumulator is the next
`accAt`: the fillers do not matter, because before the last point no block is cut and at the last point the
payload selects zero over the cut part. The inputs' buffers come back unchanged, which on the entries inside
the arrays is what the obligation states of them. The launch is the library's frame run for a program that
continues with host lines after the region. Everything is stated for any float instance.
-/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation -/

abbrev ms0 (t : Fin cfg0.N) : Memref sig .tc .vmem S32x2560 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2560x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S32x1024 .f32 := win0_2.stage (cfg0.slots t 2)
abbrev hs2 (t : Fin cfg0.N) : (ms2 t).IsWhole := hstage0_2 ((cfg0.slots t 2).cast nbuf0_2)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns: the inputs' buffers stated on the entries inside the arrays, the accumulator's exactly. -/
def bodyPost (c : Dev nD) (t : Fin cfg0.N) : sProp 𝕄 :=
  iprop((dats m 0 c).Φ t.succ ∗ (dats m 0 c).owesAt () t.succ
    ∗ (∃ d, owns (c : Thread nD τ) (ms0 t) fullShare (win0_0.fill (grid0.coords t) d (win0_0.cut (grid0.coords t) ((dats m 0 c).after 0 t))))
    ∗ (∃ d, owns (c : Thread nD τ) (ms1 t) fullShare (win0_1.fill (grid0.coords t) d (win0_1.cut (grid0.coords t) ((dats m 0 c).after 1 t))))
    ∗ owns (c : Thread nD τ) (ms2 t) fullShare ((dats m 0 c).after 2 t))

set_option maxHeartbeats 1000000 in
/-- The body at the first point: reset, then add. -/
theorem sound_first (c : Dev nD) (t : Fin cfg0.N) (h0 : t.val = 0) :
    bodyPre m c t ⊢ wp frame (wpE (defs₀ (F := F)) Variants.none c none) Set.univ (bodyAt0 t) (fun _ => bodyPost m c t) := by
  have hN : t.val < 40 := lt_of_lt_of_eq t.isLt (show cfg0.N = 40 from N_0)
  have c1 : k0_cond1 (grid0.coords t) = 1#1 := (first_iff t).mpr h0
  have c2 : k0_cond2 (grid0.coords t) = 1#1 := (below_last_iff t).mpr (by omega)
  have c3 : ¬ k0_cond3 (grid0.coords t) = 1#1 := fun h => by have := (last_iff t).mp h; omega
  unfold bodyPre bodyPost bodyAt0
  simp only [before_bt, before_at, before_acc_first m c t h0]
  rw [show (dats m 0 c).Φ t.succ = (dats m 0 c).Φ t.castSucc from rfl,
    show (dats m 0 c).owesAt () t.succ = (dats m 0 c).owesAt () t.castSucc from rfl,
    after_bt, after_at, after_acc,
    show win0_0.cut (grid0.coords t) (btBlock m c t) = iblk m c 0 t from win0_0.cut_fill _ _ _,
    show win0_1.cut (grid0.coords t) (atBlock m c t) = iblk m c 1 t from win0_1.cut_fill _ _ _,
    accAt_first m c t h0]
  iintro ⟨HΦ, Ho, ⟨%d0, H0⟩, ⟨%d1, H1⟩, ⟨%d2, H2⟩⟩
  iapply ((runFirst c (grid0.coords t) (ms0 t) (hs0 t) (ms1 t) (hs1 t) (ms2 t) (hs2 t) c1 c2 c3 (win0_0.fill (grid0.coords t) d0 (iblk m c 0 t)) (win0_1.fill (grid0.coords t) d1 (iblk m c 1 t))).2 Set.univ _)
  isplitl [H0]; · iexact H0
  isplitl [H1]; · iexact H1
  isplitl [H2]; · iexists d2; iexact H2
  iintro ⟨H0, H1, ⟨%e2, H2⟩⟩
  isplitl [HΦ]; · iexact HΦ
  isplitl [Ho]; · iexact Ho
  isplitl [H0]; · iexists d0; iexact H0
  isplitl [H1]; · iexists d1; iexact H1
  unfold owns; iexists _; isplitr
  swap; · iexact H2
  ipureintro
  exact ((View.read_writes_of_cover _ _ accView accView.junk _
      (cover_first c (grid0.coords t) (ms0 t) (hs0 t) (ms1 t) (hs1 t) (ms2 t) (hs2 t) c1 c2 c3 (win0_0.fill (grid0.coords t) d0 (iblk m c 0 t)) (win0_1.fill (grid0.coords t) d1 (iblk m c 1 t)))).trans
    (left_first (F := F) c (grid0.coords t) (ms0 t) (hs0 t) (ms1 t) (hs1 t) (ms2 t) (hs2 t) c1 c2 c3 (win0_0.fill (grid0.coords t) d0 (iblk m c 0 t)) (win0_1.fill (grid0.coords t) d1 (iblk m c 1 t)))).trans
    (by rw [bt_fill_uncut m c t (by omega) d0, at_fill_uncut m c t (by omega) d1])

set_option maxHeartbeats 1000000 in
/-- The body at a middle point: add to what the point before left. -/
theorem sound_middle (c : Dev nD) (t : Fin cfg0.N) (h0 : t.val ≠ 0) (h1 : t.val < 39) :
    bodyPre m c t ⊢ wp frame (wpE (defs₀ (F := F)) Variants.none c none) Set.univ (bodyAt0 t) (fun _ => bodyPost m c t) := by
  have c1 : ¬ k0_cond1 (grid0.coords t) = 1#1 := fun h => h0 ((first_iff t).mp h)
  have c2 : k0_cond2 (grid0.coords t) = 1#1 := (below_last_iff t).mpr h1
  have c3 : ¬ k0_cond3 (grid0.coords t) = 1#1 := fun h => by have := (last_iff t).mp h; omega
  unfold bodyPre bodyPost bodyAt0
  simp only [before_bt, before_at, before_acc_later m c t h0]
  rw [show (dats m 0 c).Φ t.succ = (dats m 0 c).Φ t.castSucc from rfl,
    show (dats m 0 c).owesAt () t.succ = (dats m 0 c).owesAt () t.castSucc from rfl,
    after_bt, after_at, after_acc,
    show win0_0.cut (grid0.coords t) (btBlock m c t) = iblk m c 0 t from win0_0.cut_fill _ _ _,
    show win0_1.cut (grid0.coords t) (atBlock m c t) = iblk m c 1 t from win0_1.cut_fill _ _ _,
    accAt_middle m c t h0 h1]
  iintro ⟨HΦ, Ho, ⟨%d0, H0⟩, ⟨%d1, H1⟩, ⟨%d2, H2⟩⟩
  iapply ((runMiddle c (grid0.coords t) (ms0 t) (hs0 t) (ms1 t) (hs1 t) (ms2 t) (hs2 t) c1 c2 c3 (win0_0.fill (grid0.coords t) d0 (iblk m c 0 t)) (win0_1.fill (grid0.coords t) d1 (iblk m c 1 t)) (accAt m c (t.val - 1) (Nat.lt_of_le_of_lt (Nat.sub_le _ _) t.isLt))).2 Set.univ _)
  isplitl [H0]; · iexact H0
  isplitl [H1]; · iexact H1
  isplitl [H2]; · iexact H2
  iintro ⟨H0, H1, ⟨%e2, H2⟩⟩
  isplitl [HΦ]; · iexact HΦ
  isplitl [Ho]; · iexact Ho
  isplitl [H0]; · iexists d0; iexact H0
  isplitl [H1]; · iexists d1; iexact H1
  unfold owns; iexists _; isplitr
  swap; · iexact H2
  ipureintro
  exact ((View.read_writes_of_cover _ _ accView accView.junk _
      (cover_middle c (grid0.coords t) (ms0 t) (hs0 t) (ms1 t) (hs1 t) (ms2 t) (hs2 t) c1 c2 c3 (win0_0.fill (grid0.coords t) d0 (iblk m c 0 t)) (win0_1.fill (grid0.coords t) d1 (iblk m c 1 t)) (accAt m c (t.val - 1) (Nat.lt_of_le_of_lt (Nat.sub_le _ _) t.isLt)))).trans
    (left_middle (F := F) c (grid0.coords t) (ms0 t) (hs0 t) (ms1 t) (hs1 t) (ms2 t) (hs2 t) c1 c2 c3 (win0_0.fill (grid0.coords t) d0 (iblk m c 0 t)) (win0_1.fill (grid0.coords t) d1 (iblk m c 1 t)) (accAt m c (t.val - 1) (Nat.lt_of_le_of_lt (Nat.sub_le _ _) t.isLt)))).trans
    (by rw [bt_fill_uncut m c t h1 d0, at_fill_uncut m c t h1 d1])

set_option maxHeartbeats 1000000 in
/-- The body at the last point: add the masked product to what the point before left. -/
theorem sound_last (c : Dev nD) (t : Fin cfg0.N) (h39 : t.val = 39) :
    bodyPre m c t ⊢ wp frame (wpE (defs₀ (F := F)) Variants.none c none) Set.univ (bodyAt0 t) (fun _ => bodyPost m c t) := by
  have h0 : t.val ≠ 0 := by omega
  have h1 : ¬ t.val < 39 := by omega
  have c1 : ¬ k0_cond1 (grid0.coords t) = 1#1 := fun h => h0 ((first_iff t).mp h)
  have c2 : ¬ k0_cond2 (grid0.coords t) = 1#1 := fun h => h1 ((below_last_iff t).mp h)
  have c3 : k0_cond3 (grid0.coords t) = 1#1 := (last_iff t).mpr h39
  unfold bodyPre bodyPost bodyAt0
  simp only [before_bt, before_at, before_acc_later m c t h0]
  rw [show (dats m 0 c).Φ t.succ = (dats m 0 c).Φ t.castSucc from rfl,
    show (dats m 0 c).owesAt () t.succ = (dats m 0 c).owesAt () t.castSucc from rfl,
    after_bt, after_at, after_acc,
    show win0_0.cut (grid0.coords t) (btBlock m c t) = iblk m c 0 t from win0_0.cut_fill _ _ _,
    show win0_1.cut (grid0.coords t) (atBlock m c t) = iblk m c 1 t from win0_1.cut_fill _ _ _,
    accAt_last m c t h0 h1]
  iintro ⟨HΦ, Ho, ⟨%d0, H0⟩, ⟨%d1, H1⟩, ⟨%d2, H2⟩⟩
  iapply ((runLast c (grid0.coords t) (ms0 t) (hs0 t) (ms1 t) (hs1 t) (ms2 t) (hs2 t) c1 c2 c3 (win0_0.fill (grid0.coords t) d0 (iblk m c 0 t)) (win0_1.fill (grid0.coords t) d1 (iblk m c 1 t)) (accAt m c (t.val - 1) (Nat.lt_of_le_of_lt (Nat.sub_le _ _) t.isLt))).2 Set.univ _)
  isplitl [H0]; · iexact H0
  isplitl [H1]; · iexact H1
  isplitl [H2]; · iexact H2
  iintro ⟨H0, H1, ⟨%e2, H2⟩⟩
  isplitl [HΦ]; · iexact HΦ
  isplitl [Ho]; · iexact Ho
  isplitl [H0]; · iexists d0; iexact H0
  isplitl [H1]; · iexists d1; iexact H1
  unfold owns; iexists _; isplitr
  swap; · iexact H2
  ipureintro
  exact ((View.read_writes_of_cover _ _ accView accView.junk _
      (cover_last c (grid0.coords t) (ms0 t) (hs0 t) (ms1 t) (hs1 t) (ms2 t) (hs2 t) c1 c2 c3 (win0_0.fill (grid0.coords t) d0 (iblk m c 0 t)) (win0_1.fill (grid0.coords t) d1 (iblk m c 1 t)) (accAt m c (t.val - 1) (Nat.lt_of_le_of_lt (Nat.sub_le _ _) t.isLt)))).trans
    (left_last (F := F) c (grid0.coords t) (ms0 t) (hs0 t) (ms1 t) (hs1 t) (ms2 t) (hs2 t) c1 c2 c3 (win0_0.fill (grid0.coords t) d0 (iblk m c 0 t)) (win0_1.fill (grid0.coords t) d1 (iblk m c 1 t)) (accAt m c (t.val - 1) (Nat.lt_of_le_of_lt (Nat.sub_le _ _) t.isLt)))).trans
    (pay3_filler_irrelevant t h39 d0 (fun _ => Scalar.ofBits .f32 0#32) (iblk m c 0 t) d1 (fun _ => Scalar.ofBits .f32 0#32) (iblk m c 1 t) (accAt m c (t.val - 1) (Nat.lt_of_le_of_lt (Nat.sub_le _ _) t.isLt)))

/-- The body at any point: it is the first, a middle or the last. -/
theorem sound_body (c : Dev nD) (t : Fin cfg0.N) :
    bodyPre m c t ⊢ wp frame (wpE (defs₀ (F := F)) Variants.none c none) Set.univ (bodyAt0 t) (fun _ => bodyPost m c t) := by
  have hN : t.val < 40 := lt_of_lt_of_eq t.isLt (show cfg0.N = 40 from N_0)
  by_cases h0 : t.val = 0
  · exact sound_first m c t h0
  · by_cases h1 : t.val < 39
    · exact sound_middle m c t h0 h1
    · exact sound_last m c t (by omega)

/-- The library's body obligation, at every point: the two clipped inputs are described on the entries inside
    their arrays, the accumulator exactly. -/
theorem body_obligation (c : Dev nD) : BodyObligationLoose (dats (F := F) m 0 c) (defs₀ (F := F)) Variants.none () Set.univ := fun t => by
  rw [bigSep_W0, bigSep_W0]
  rw [acc_live_cfg t]
  exact sound_body m c t
/-! ## The run and the frame -/

set_option backward.isDefEq.respectTransparency.types false in
/-- For any values, from any memory with zero counters: every weakly fair execution of @main terminates, every
    array of the pipeline ends at what the library computes from the proof data, every other unscoped buffer as
    the line after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere, and leaves both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.IdealRuns.lean ====
import proofs.«121381_g60258391163021_cont_9to1_m_978_18_alg».proof.Proof.Gen.KernelIdeal.Frame
import proofs.«121381_g60258391163021_cont_9to1_m_978_18_alg».proof.Proof.Gen.KernelIdeal.Skeleton

set_option maxRecDepth 16384

/-!
# The kernel body, run once per control case

The grid has forty points along the contraction axis. The body has three conditionals on the point `k`:
`k = 0` (the (32, 1024) accumulator block is reset to zero), `k < 39` (the product of the point's
(32, 2560) and (2560, 1024) blocks is added to the accumulator) and `k = 39` (the same, after both blocks
are masked to their first 160 contraction entries, the part of the last block that lies inside the arrays).
So a point is in exactly one of three cases: the first point (reset, then add), a middle point (add to what
the point before left), the last point (add the masked product to what the point before left).

Each theorem below runs the body in one case on whole staging memrefs — the two input blocks at given
contents, the accumulator at anything (first point) or at given contents (later points) — and returns the
list of pieces the body's stores leave in the accumulator's buffer, the inputs' buffers unchanged.
Everything is stated for any float instance.
-/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
/-- The first point (`k = 0`): the accumulator's buffer holds anything; the body resets it and adds the
    point's block product. -/
noncomputable def runFirst (c : Dev nD) (i : grid0.Coords)
    (arg1 : Memref sig .tc .vmem S32x2560 .f32) (harg1 : arg1.IsWhole)
    (arg2 : Memref sig .tc .vmem S2560x1024 .f32) (harg2 : arg2.IsWhole)
    (arg3 : Memref sig .tc .vmem S32x1024 .f32) (harg3 : arg3.IsWhole)
    (h1 : k0_cond1 i = 1#1) (h2 : k0_cond2 i = 1#1) (h3 : ¬ k0_cond3 i = 1#1)
    (x0 : Vec F S32x2560 .f32) (x1 : Vec F S2560x1024 .f32) :
    { L : List (View.Piece (Elt F) S32x1024 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)) -∗ K ⟨⟩))
          ⊢ wp frame (wpE (defs₀ (F := F)) Variants.none c none) E (cc0__mm_kernel i arg1 harg1 arg2 harg2 arg3 harg3) K } := by
  refine ⟨?_, fun E K => ?run⟩
  case run =>
    simp only [cc0__mm_kernel_eq_skeleton]; unfold cc0__mm_kernel_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact h1 | exact h2 | exact h3)
    sl_step
    iapply Hk
    isplitl [H0]
    · iexists _; isplitr; · ipureintro; exact harg1.read_unread _
      iexact H0
    isplitl [H1]
    · iexists _; isplitr; · ipureintro; exact harg2.read_unread _
      iexact H1
    iexists _; iexact H2

set_option maxHeartbeats 1000000 in
/-- A middle point (`0 < k < 39`): the accumulator's buffer holds `xo`, what the point before left; the
    body adds the point's block product to it. -/
noncomputable def runMiddle (c : Dev nD) (i : grid0.Coords)
    (arg1 : Memref sig .tc .vmem S32x2560 .f32) (harg1 : arg1.IsWhole)
    (arg2 : Memref sig .tc .vmem S2560x1024 .f32) (harg2 : arg2.IsWhole)
    (arg3 : Memref sig .tc .vmem S32x1024 .f32) (harg3 : arg3.IsWhole)
    (h1 : ¬ k0_cond1 i = 1#1) (h2 : k0_cond2 i = 1#1) (h3 : ¬ k0_cond3 i = 1#1)
    (x0 : Vec F S32x2560 .f32) (x1 : Vec F S2560x1024 .f32) (xo : Vec F S32x1024 .f32) :
    { L : List (View.Piece (Elt F) S32x1024 .f32) //
      ∀ (E : Set ℕ) (K : PUnit → sProp 𝕄),
        iprop(owns (c : Thread nD τ) arg1 fullShare x0 ∗ owns (c : Thread nD τ) arg2 fullShare x1
            ∗ owns (c : Thread nD τ) arg3 fullShare xo
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)) -∗ K ⟨⟩))
          ⊢ wp frame (wpE (defs₀ (F := F)) Variants.none c none) E (cc0__mm_kernel i arg1 harg1 arg2 harg2 arg3 harg3) K } := by
  refine ⟨?_, fun E K => ?run⟩
  case run =>
    simp only [cc0__mm_kernel_eq_skeleton]; unfold cc0__mm_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact h1 | exact h2 | exact h3)
    sl_step
    iapply Hk
    isplitl [H0]
    · iexists _; isplitr; · ipureintro; exact harg1.read_unread _
      iexact H0
    isplitl [H1]
    · iexists _; isplitr; · ipureintro; exact harg2.read_unread _
      iexact H1
    iexists _; iexact H2

set_option maxHeartbeats 1000000 in
/-- The last point (`k = 39`): the accumulator's buffer holds `xo`; the body adds the product of the two
    blocks masked to their first 160 contraction entries. -/
noncomputable def runLast (c : Dev nD) (i : grid0.Coords)
    (arg1 : Memref sig .tc .vmem S32x2560 .f32) (harg1 : arg1.IsWhole)
    (arg2 : Memref sig .tc .vmem S2560x1024 .f32) (harg2 : arg2.IsWhole)
    (arg3 : Memref sig .tc .vmem S32x1024 .f32) (harg3 : arg3.IsWhole)
    (h1 : ¬ k0_cond1 i = 1#1) (h2 : ¬ k0_cond2 i = 1#1) (h3 : k0_cond3 i = 1#1)
    (x0 : Vec F S32x2560 .f32) (x1 : Vec F S2560x1024 .f32) (xo : Vec F S32x1024 .f32) :
    { L : List (View.Piece (Elt F) S32x1024 .f32) //
      ∀ (E : Set ℕ) (K : PUnit → sProp 𝕄),
        iprop(owns (c : Thread nD τ) arg1 fullShare x0 ∗ owns (c : Thread nD τ) arg2 fullShare x1
            ∗ owns (c : Thread nD τ) arg3 fullShare xo
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)) -∗ K ⟨⟩))
          ⊢ wp frame (wpE (defs₀ (F := F)) Variants.none c none) E (cc0__mm_kernel i arg1 harg1 arg2 harg2 arg3 harg3) K } := by
  refine ⟨?_, fun E K => ?run⟩
  case run =>
    simp only [cc0__mm_kernel_eq_skeleton]; unfold cc0__mm_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact h1 | exact h2 | exact h3)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.KernelIdeal.Hand

end
-- ==== Proof.IdealMask.lean ====
import proofs.«121381_g60258391163021_cont_9to1_m_978_18_alg».proof.Proof.Gen.KernelIdeal.Skeleton
import proofs.«121381_g60258391163021_cont_9to1_m_978_18_alg».proof.Proof.Gen.KernelIdeal.Points
import Idealize.ShloMosaic.Lib.Pipeline.Value
import Idealize.ShloMosaic.Lib.ValueIdx

set_option synthInstance.maxSize 4096

noncomputable section

namespace Cert.KernelIdeal.Hand

open Cert.KernelIdeal Cert.KernelIdeal.Gen Idealize.ShloMosaic Idealize.ShloMosaic.ValueIdx

variable {F : FTy → Type} [FloatOps F]

/-- A 32-bit word holding a number below 2560 is below the word 160 in the signed order exactly when the number is
    below 160: both words are non-negative as signed integers, so the signed comparison is the comparison of the
    numbers. -/
theorem slt_160 (n : Nat) (hn : n < 2560) :
    IntOp.cmpi .slt (BitVec.ofNat 32 n) 160#32 = (if n < 160 then 1#1 else 0#1) := by
  have hx : (BitVec.ofNat 32 n).toInt = (n : Int) := by
    rw [BitVec.toInt_eq_toNat_of_lt (by rw [BitVec.toNat_ofNat]; omega), BitVec.toNat_ofNat]
    omega
  have hy : (160#32 : BitVec 32).toInt = 160 := by decide
  show BitVec.ofBool ((BitVec.ofNat 32 n).slt 160#32) = _
  rw [BitVec.slt_eq_decide, hx, hy]
  split
  · next h => rw [decide_eq_true (by omega)]; rfl
  · next h => rw [decide_eq_false (by omega)]; rfl

/-- At the last grid point the transfer into the first operand's staging block moves 32 rows and the first 160
    columns: the block's last axis is cut at the array's end, 100000 - 39 * 2560 = 160. -/
theorem xsize0_last : ∀ t : Fin grid0.N, t.val = 39 → ∀ a, win0_0.xsize (grid0.coords t) a = (![32, 160] : Fin 2 → Nat) a := by
  decide +kernel

/-- At the last grid point the transfer into the second operand's staging block moves the first 160 rows and all
    1024 columns: the block's first axis is cut at the array's end. -/
theorem xsize1_last : ∀ t : Fin grid0.N, t.val = 39 → ∀ a, win0_1.xsize (grid0.coords t) a = (![160, 1024] : Fin 2 → Nat) a := by
  decide +kernel

/-- Two fetches of the same block part into the first operand's staging block agree at every entry whose column
    is below 160, whatever the block held before: those entries are the ones the fetch moves. -/
theorem fill0_agree (t : Fin cfg0.N) (ht : t.val = 39)
    (d0 d0' : S32x2560.Idx → Elt F .f32) (g0 : (win0_0.xblock (grid0.coords t)).Idx → Elt F .f32)
    (j : S32x2560.Idx) (h : (j 1).val < 160) :
    win0_0.fill (grid0.coords t) d0 g0 j = win0_0.fill (grid0.coords t) d0' g0 j := by
  have hm : win0_0.moved (grid0.coords t) j = true :=
    (win0_0.moved_iff _ j).mpr fun a => by
      rw [xsize0_last t ht a]
      match a with
      | ⟨0, _⟩ => exact idx2_lt0 j
      | ⟨1, _⟩ => exact h
  unfold Pipeline.Window.fill
  rw [dif_pos hm, dif_pos hm]

/-- Two fetches of the same block part into the second operand's staging block agree at every entry whose row
    is below 160, whatever the block held before. -/
theorem fill1_agree (t : Fin cfg0.N) (ht : t.val = 39)
    (d1 d1' : S2560x1024.Idx → Elt F .f32) (g1 : (win0_1.xblock (grid0.coords t)).Idx → Elt F .f32)
    (j : S2560x1024.Idx) (h : (j 0).val < 160) :
    win0_1.fill (grid0.coords t) d1 g1 j = win0_1.fill (grid0.coords t) d1' g1 j := by
  have hm : win0_1.moved (grid0.coords t) j = true :=
    (win0_1.moved_iff _ j).mpr fun a => by
      rw [xsize1_last t ht a]
      match a with
      | ⟨0, _⟩ => exact h
      | ⟨1, _⟩ => exact idx2_lt1 j
  unfold Pipeline.Window.fill
  rw [dif_pos hm, dif_pos hm]

/-- A 32 x 2560 block masked to its first 160 columns (the zero word elsewhere) depends only on the block's
    entries in those columns. -/
theorem mask0_congr (z : F .f32) (a a' : Vec F S32x2560 .f32)
    (h : ∀ j : S32x2560.Idx, (j 1).val < 160 → a j = a' j) :
    (select (cmpi .slt (iota .tc S32x2560 32 [1] iota_S32x2560_d1_w32) (broadcast S32x2560 160#32))
      (shapeCast S32x2560 a shapeCasts_S32x2560_S32x2560) (broadcast S32x2560 z) : FVec F S32x2560 .f32)
    = select (cmpi .slt (iota .tc S32x2560 32 [1] iota_S32x2560_d1_w32) (broadcast S32x2560 160#32))
      (shapeCast S32x2560 a' shapeCasts_S32x2560_S32x2560) (broadcast S32x2560 z) := by
  rw [shapeCast_self, shapeCast_self]
  funext j
  show Scalar.select (IntOp.cmpi .slt (iota .tc S32x2560 32 [1] iota_S32x2560_d1_w32 j) 160#32) _ _
    = Scalar.select (IntOp.cmpi .slt (iota .tc S32x2560 32 [1] iota_S32x2560_d1_w32 j) 160#32) _ _
  rw [iota_single_apply, slt_160 _ (idx2_lt1 j)]
  by_cases hj : (j 1).val < 160
  · rw [if_pos hj, select_one, select_one]; exact h j hj
  · rw [if_neg hj, select_zero, select_zero]

/-- A 2560 x 1024 block masked to its first 160 rows (the zero word elsewhere) depends only on the block's
    entries in those rows. -/
theorem mask1_congr (z : F .f32) (a a' : Vec F S2560x1024 .f32)
    (h : ∀ j : S2560x1024.Idx, (j 0).val < 160 → a j = a' j) :
    (select (cmpi .slt (iota .tc S2560x1024 32 [0] iota_S2560x1024_d0_w32) (broadcast S2560x1024 160#32))
      (shapeCast S2560x1024 a shapeCasts_S2560x1024_S2560x1024) (broadcast S2560x1024 z) : FVec F S2560x1024 .f32)
    = select (cmpi .slt (iota .tc S2560x1024 32 [0] iota_S2560x1024_d0_w32) (broadcast S2560x1024 160#32))
      (shapeCast S2560x1024 a' shapeCasts_S2560x1024_S2560x1024) (broadcast S2560x1024 z) := by
  rw [shapeCast_self, shapeCast_self]
  funext j
  show Scalar.select (IntOp.cmpi .slt (iota .tc S2560x1024 32 [0] iota_S2560x1024_d0_w32 j) 160#32) _ _
    = Scalar.select (IntOp.cmpi .slt (iota .tc S2560x1024 32 [0] iota_S2560x1024_d0_w32 j) 160#32) _ _
  rw [iota_single_apply, slt_160 _ (idx2_lt0 j)]
  by_cases hj : (j 0).val < 160
  · rw [if_pos hj, select_one, select_one]; exact h j hj
  · rw [if_neg hj, select_zero, select_zero]

/-- At the last grid point the two input blocks overhang their arrays: only contraction entries 0..159 are inside. The payload selects zero at entries 160 and above of both operands, so it does not depend on what the staging buffers hold there. -/
theorem pay3_filler_irrelevant (t : Fin cfg0.N) (ht : t.val = 39)
    (d0 d0' : S32x2560.Idx → Elt F .f32) (g0 : (win0_0.xblock (grid0.coords t)).Idx → Elt F .f32)
    (d1 d1' : S2560x1024.Idx → Elt F .f32) (g1 : (win0_1.xblock (grid0.coords t)).Idx → Elt F .f32)
    (acc : Vec F S32x1024 .f32) :
    k0_pay3 (F := F) (win0_0.fill (grid0.coords t) d0 g0) (win0_1.fill (grid0.coords t) d1 g1) acc
      = k0_pay3 (F := F) (win0_0.fill (grid0.coords t) d0' g0) (win0_1.fill (grid0.coords t) d1' g1) acc := by
  unfold k0_pay3
  dsimp only
  rw [mask0_congr _ (win0_0.fill (grid0.coords t) d0 g0) (win0_0.fill (grid0.coords t) d0' g0) (fill0_agree t ht d0 d0' g0),
    mask1_congr _ (win0_1.fill (grid0.coords t) d1 g1) (win0_1.fill (grid0.coords t) d1' g1) (fill1_agree t ht d1 d1' g1)]

end Cert.KernelIdeal.Hand

end
-- ==== Proof.IdealData.lean ====
import proofs.«121381_g60258391163021_cont_9to1_m_978_18_alg».proof.Proof.IdealRuns
import proofs.«121381_g60258391163021_cont_9to1_m_978_18_alg».proof.Proof.IdealMask
import Idealize.ShloMosaic.Lib.Pipeline.Value

set_option maxRecDepth 16384

/-!
# The kernel's proof data

The one pallas_call walks forty points along the contraction axis. Windows 0 and 1 stage the point's
(32, 2560) block of the transposed second operand and (2560, 1024) block of the transposed first operand;
at the last point both blocks overhang their arrays (only contraction entries 0..159 are inside), and what a
staging buffer holds past the array's end is not determined. Window 2 is the (32, 1024) accumulator: one
block, the whole array, carried from point to point in its staging buffer and written back after the last.

What each staging buffer holds after the body at each point:
* an input's buffer: its block, on the entries inside the array (all the obligation states of it);
* the accumulator's: `accAt`, by recursion on the point — the reset-and-add payload at point 0, the add
  payload over the previous contents at points 1..38, the masked-add payload at point 39.
The accumulator's contents must be a function of the point alone, although the body is handed input buffers
whose entries past the array's end are arbitrary: at points 0..38 no block is cut, so there are no such
entries; at point 39 the payload selects zero over them (`pay3_filler_irrelevant`).
Everything is stated for any float instance.
-/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three conditions, decided over the grid -/

/-- The reset is taken at point 0 only, -/
theorem first_iff : ∀ t : Fin cfg0.N, k0_cond1 (grid0.coords t) = 1#1 ↔ t.val = 0 :=
  (by decide +kernel : ∀ t : Fin grid0.N, k0_cond1 (grid0.coords t) = 1#1 ↔ t.val = 0)
/-- the plain accumulation at points 0..38, -/
theorem below_last_iff : ∀ t : Fin cfg0.N, k0_cond2 (grid0.coords t) = 1#1 ↔ t.val < 39 :=
  (by decide +kernel : ∀ t : Fin grid0.N, k0_cond2 (grid0.coords t) = 1#1 ↔ t.val < 39)
/-- the masked accumulation at point 39 only. -/
theorem last_iff : ∀ t : Fin cfg0.N, k0_cond3 (grid0.coords t) = 1#1 ↔ t.val = 39 :=
  (by decide +kernel : ∀ t : Fin grid0.N, k0_cond3 (grid0.coords t) = 1#1 ↔ t.val = 39)
/-- So the body stores into the accumulator at every point: it is idle nowhere. -/
theorem acc_live : ∀ t : Fin cfg0.N, idle0 2 (grid0.coords t) = false :=
  (by decide +kernel : ∀ t : Fin grid0.N, idle0 2 (grid0.coords t) = false)
/-- (the same, as the pipeline's configuration spells it) -/
theorem acc_live_cfg (t : Fin cfg0.N) : cfg0.idle 2 (cfg0.grid.coords t) = false := acc_live t
/-- No block of either input is cut before the last point. -/
theorem uncut_bt : ∀ t : Fin cfg0.N, t.val < 39 → (cfg0.win 0).clipped (cfg0.grid.coords t) = false :=
  (by decide +kernel : ∀ t : Fin grid0.N, t.val < 39 → win0_0.clipped (grid0.coords t) = false)
theorem uncut_at : ∀ t : Fin cfg0.N, t.val < 39 → (cfg0.win 1).clipped (cfg0.grid.coords t) = false :=
  (by decide +kernel : ∀ t : Fin grid0.N, t.val < 39 → win0_1.clipped (grid0.coords t) = false)

/-! ## What each case leaves in the accumulator's buffer -/

/-- One staging buffer of the accumulator, through which its contents are stated. -/
abbrev accView : View sig .tc .vmem S32x1024 .f32 := (Memref.whole cc0_stg2_0 : Memref sig .tc .vmem S32x1024 .f32).view

theorem cover_first (c : Dev nD) (i : grid0.Coords)
    (arg1 : Memref sig .tc .vmem S32x2560 .f32) (harg1 : arg1.IsWhole)
    (arg2 : Memref sig .tc .vmem S2560x1024 .f32) (harg2 : arg2.IsWhole)
    (arg3 : Memref sig .tc .vmem S32x1024 .f32) (harg3 : arg3.IsWhole)
    (h1 : k0_cond1 i = 1#1) (h2 : k0_cond2 i = 1#1) (h3 : ¬ k0_cond3 i = 1#1)
    (x0 : Vec F S32x2560 .f32) (x1 : Vec F S2560x1024 .f32) (y : S32x1024.Idx) :
    ∃ pc ∈ (runFirst c i arg1 harg1 arg2 harg2 arg3 harg3 h1 h2 h3 x0 x1).1, y ∈ pc.1.set :=
  View.cover_of_tiledL (runFirst c i arg1 harg1 arg2 harg2 arg3 harg3 h1 h2 h3 x0 x1).1 S32x1024.size (by sl_kernel_rfl) y

theorem cover_middle (c : Dev nD) (i : grid0.Coords)
    (arg1 : Memref sig .tc .vmem S32x2560 .f32) (harg1 : arg1.IsWhole)
    (arg2 : Memref sig .tc .vmem S2560x1024 .f32) (harg2 : arg2.IsWhole)
    (arg3 : Memref sig .tc .vmem S32x1024 .f32) (harg3 : arg3.IsWhole)
    (h1 : ¬ k0_cond1 i = 1#1) (h2 : k0_cond2 i = 1#1) (h3 : ¬ k0_cond3 i = 1#1)
    (x0 : Vec F S32x2560 .f32) (x1 : Vec F S2560x1024 .f32) (xo : Vec F S32x1024 .f32) (y : S32x1024.Idx) :
    ∃ pc ∈ (runMiddle c i arg1 harg1 arg2 harg2 arg3 harg3 h1 h2 h3 x0 x1 xo).1, y ∈ pc.1.set :=
  View.cover_of_tiledL (runMiddle c i arg1 harg1 arg2 harg2 arg3 harg3 h1 h2 h3 x0 x1 xo).1 S32x1024.size (by sl_kernel_rfl) y

theorem cover_last (c : Dev nD) (i : grid0.Coords)
    (arg1 : Memref sig .tc .vmem S32x2560 .f32) (harg1 : arg1.IsWhole)
    (arg2 : Memref sig .tc .vmem S2560x1024 .f32) (harg2 : arg2.IsWhole)
    (arg3 : Memref sig .tc .vmem S32x1024 .f32) (harg3 : arg3.IsWhole)
    (h1 : ¬ k0_cond1 i = 1#1) (h2 : ¬ k0_cond2 i = 1#1) (h3 : k0_cond3 i = 1#1)
    (x0 : Vec F S32x2560 .f32) (x1 : Vec F S2560x1024 .f32) (xo : Vec F S32x1024 .f32) (y : S32x1024.Idx) :
    ∃ pc ∈ (runLast c i arg1 harg1 arg2 harg2 arg3 harg3 h1 h2 h3 x0 x1 xo).1, y ∈ pc.1.set :=
  View.cover_of_tiledL (runLast c i arg1 harg1 arg2 harg2 arg3 harg3 h1 h2 h3 x0 x1 xo).1 S32x1024.size (by sl_kernel_rfl) y

/-- At the first point the stores leave the add payload over the reset payload: zero plus the block product. -/
theorem left_first (c : Dev nD) (i : grid0.Coords)
    (arg1 : Memref sig .tc .vmem S32x2560 .f32) (harg1 : arg1.IsWhole)
    (arg2 : Memref sig .tc .vmem S2560x1024 .f32) (harg2 : arg2.IsWhole)
    (arg3 : Memref sig .tc .vmem S32x1024 .f32) (harg3 : arg3.IsWhole)
    (h1 : k0_cond1 i = 1#1) (h2 : k0_cond2 i = 1#1) (h3 : ¬ k0_cond3 i = 1#1)
    (x0 : Vec F S32x2560 .f32) (x1 : Vec F S2560x1024 .f32) :
    accView.read (Elt F) (accView.writes (Elt F) accView.junk (runFirst c i arg1 harg1 arg2 harg2 arg3 harg3 h1 h2 h3 x0 x1).1)
      = k0_pay2 (k0_pay1 (F := F)) x0 x1 := by
  have hz : (![0, 0] : Fin 2 → Nat) = fun _ => 0 := funext fun a => by fin_cases a <;> rfl
  rw [View.read_writes_eq_canon _ _ _ (cover_first c i arg1 harg1 arg2 harg2 arg3 harg3 h1 h2 h3 x0 x1)]
  unfold runFirst
  dsimp only
  sl_unfold_words
  rw [View.canon_cons_unit_zero (S := S32x1024) hz, View.readCov_unit_zero (S := S32x1024) _ hz]
  simp only [View.readAt_eq_ld, harg1.read_unread, harg2.read_unread,
    View.ld_unit_zero (S := S32x2560) hz, View.ld_unit_zero (S := S2560x1024) hz]

/-- At a middle point they leave the add payload over what the buffer held. -/
theorem left_middle (c : Dev nD) (i : grid0.Coords)
    (arg1 : Memref sig .tc .vmem S32x2560 .f32) (harg1 : arg1.IsWhole)
    (arg2 : Memref sig .tc .vmem S2560x1024 .f32) (harg2 : arg2.IsWhole)
    (arg3 : Memref sig .tc .vmem S32x1024 .f32) (harg3 : arg3.IsWhole)
    (h1 : ¬ k0_cond1 i = 1#1) (h2 : k0_cond2 i = 1#1) (h3 : ¬ k0_cond3 i = 1#1)
    (x0 : Vec F S32x2560 .f32) (x1 : Vec F S2560x1024 .f32) (xo : Vec F S32x1024 .f32) :
    accView.read (Elt F) (accView.writes (Elt F) accView.junk (runMiddle c i arg1 harg1 arg2 harg2 arg3 harg3 h1 h2 h3 x0 x1 xo).1)
      = k0_pay2 xo x0 x1 := by
  have hz : (![0, 0] : Fin 2 → Nat) = fun _ => 0 := funext fun a => by fin_cases a <;> rfl
  rw [View.read_writes_eq_canon _ _ _ (cover_middle c i arg1 harg1 arg2 harg2 arg3 harg3 h1 h2 h3 x0 x1 xo)]
  unfold runMiddle
  dsimp only
  sl_unfold_words
  rw [View.canon_unit_zero (S := S32x1024) hz]
  simp only [View.readAt_eq_ld, harg1.read_unread, harg2.read_unread, harg3.read_unread,
    View.ld_unit_zero (S := S32x1024) hz, View.ld_unit_zero (S := S32x2560) hz, View.ld_unit_zero (S := S2560x1024) hz]

/-- At the last point they leave the masked-add payload over what the buffer held. -/
theorem left_last (c : Dev nD) (i : grid0.Coords)
    (arg1 : Memref sig .tc .vmem S32x2560 .f32) (harg1 : arg1.IsWhole)
    (arg2 : Memref sig .tc .vmem S2560x1024 .f32) (harg2 : arg2.IsWhole)
    (arg3 : Memref sig .tc .vmem S32x1024 .f32) (harg3 : arg3.IsWhole)
    (h1 : ¬ k0_cond1 i = 1#1) (h2 : ¬ k0_cond2 i = 1#1) (h3 : k0_cond3 i = 1#1)
    (x0 : Vec F S32x2560 .f32) (x1 : Vec F S2560x1024 .f32) (xo : Vec F S32x1024 .f32) :
    accView.read (Elt F) (accView.writes (Elt F) accView.junk (runLast c i arg1 harg1 arg2 harg2 arg3 harg3 h1 h2 h3 x0 x1 xo).1)
      = k0_pay3 x0 x1 xo := by
  have hz : (![0, 0] : Fin 2 → Nat) = fun _ => 0 := funext fun a => by fin_cases a <;> rfl
  rw [View.read_writes_eq_canon _ _ _ (cover_last c i arg1 harg1 arg2 harg2 arg3 harg3 h1 h2 h3 x0 x1 xo)]
  unfold runLast
  dsimp only
  sl_unfold_words
  rw [View.canon_unit_zero (S := S32x1024) hz]
  simp only [View.readAt_eq_ld, harg1.read_unread, harg2.read_unread, harg3.read_unread,
    View.ld_unit_zero (S := S32x1024) hz, View.ld_unit_zero (S := S32x2560) hz, View.ld_unit_zero (S := S2560x1024) hz]

/-! ## The input blocks -/

/-- Point `t`'s block of the transposed second operand as its staging buffer holds it, the entries past the
    array's end (at the last point) filled with the zero word: the proof's choice, which nothing reads. -/
def btBlock (c : Dev nD) (t : Fin cfg0.N) : S32x2560.Idx → Elt F .f32 :=
  win0_0.fill (grid0.coords t) (fun _ => Scalar.ofBits .f32 0#32) (iblk m c 0 t)
/-- Point `t`'s block of the transposed first operand, likewise. -/
def atBlock (c : Dev nD) (t : Fin cfg0.N) : S2560x1024.Idx → Elt F .f32 :=
  win0_1.fill (grid0.coords t) (fun _ => Scalar.ofBits .f32 0#32) (iblk m c 1 t)

/-- Before the last point a block lies inside its array: its staging buffer is the block, whatever it held. -/
theorem bt_fill_uncut (c : Dev nD) (t : Fin cfg0.N) (ht : t.val < 39) (d : S32x2560.Idx → Elt F .f32) :
    win0_0.fill (grid0.coords t) d (iblk m c 0 t) = btBlock m c t := by
  unfold btBlock
  exact Pipeline.fill_of_clip_none (cfg := cfg0) 0 (grid0.coords t) (((cfg0.win 0).clipped_eq_false_iff _).mp (uncut_bt t ht)) _ _ _
theorem at_fill_uncut (c : Dev nD) (t : Fin cfg0.N) (ht : t.val < 39) (d : S2560x1024.Idx → Elt F .f32) :
    win0_1.fill (grid0.coords t) d (iblk m c 1 t) = atBlock m c t := by
  unfold atBlock
  exact Pipeline.fill_of_clip_none (cfg := cfg0) 1 (grid0.coords t) (((cfg0.win 1).clipped_eq_false_iff _).mp (uncut_at t ht)) _ _ _

/-! ## The accumulator, point by point -/

/-- What the accumulator's staging buffer holds after the body at point `n`: zero plus the first block
    product; then, point after point, the previous contents plus the point's block product — at the last
    point the product of the blocks masked to the entries inside the arrays. -/
def accAt (c : Dev nD) : (n : ℕ) → n < cfg0.N → Vec F S32x1024 .f32
  | 0, hn => k0_pay2 (k0_pay1 (F := F)) (btBlock m c ⟨0, hn⟩) (atBlock m c ⟨0, hn⟩)
  | n + 1, hn =>
    if n + 1 < 39 then k0_pay2 (accAt c n (Nat.lt_of_succ_lt hn)) (btBlock m c ⟨n + 1, hn⟩) (atBlock m c ⟨n + 1, hn⟩)
    else k0_pay3 (btBlock m c ⟨n + 1, hn⟩) (atBlock m c ⟨n + 1, hn⟩) (accAt c n (Nat.lt_of_succ_lt hn))

theorem accAt_first (c : Dev nD) (t : Fin cfg0.N) (h0 : t.val = 0) :
    accAt m c t.val t.isLt = k0_pay2 (k0_pay1 (F := F)) (btBlock m c t) (atBlock m c t) := by
  obtain ⟨n, hn⟩ := t
  cases n with
  | zero => rfl
  | succ n => exact absurd h0 (Nat.succ_ne_zero n)

theorem accAt_middle (c : Dev nD) (t : Fin cfg0.N) (h0 : t.val ≠ 0) (h1 : t.val < 39) :
    accAt m c t.val t.isLt
      = k0_pay2 (accAt m c (t.val - 1) (Nat.lt_of_le_of_lt (Nat.sub_le _ _) t.isLt)) (btBlock m c t) (atBlock m c t) := by
  obtain ⟨n, hn⟩ := t
  cases n with
  | zero => exact absurd rfl h0
  | succ n => exact (if_pos h1).trans rfl

theorem accAt_last (c : Dev nD) (t : Fin cfg0.N) (h0 : t.val ≠ 0) (h1 : ¬ t.val < 39) :
    accAt m c t.val t.isLt
      = k0_pay3 (btBlock m c t) (atBlock m c t) (accAt m c (t.val - 1) (Nat.lt_of_le_of_lt (Nat.sub_le _ _) t.isLt)) := by
  obtain ⟨n, hn⟩ := t
  cases n with
  | zero => exact absurd rfl h0
  | succ n => exact (if_neg h1).trans rfl

/-! ## The proof data -/

/-- The proof data of the pipeline on core `c`: the arrays as the region finds them; after the body at point
    `t` each input's buffer at its block and the accumulator's at `accAt`; the class's invariant; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => btBlock m c t
    | ⟨1, _⟩ => atBlock m c t
    | ⟨2, _⟩ => accAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]
theorem after_bt (c : Dev nD) (t : Fin cfg0.N) : (dats m 0 c).after 0 t = btBlock m c t := by dsimp only [dats]
theorem after_at (c : Dev nD) (t : Fin cfg0.N) : (dats m 0 c).after 1 t = atBlock m c t := by dsimp only [dats]
theorem after_acc (c : Dev nD) (t : Fin cfg0.N) : (dats m 0 c).after 2 t = accAt m c t.val t.isLt := by dsimp only [dats]

/-- Both inputs are fetched at every point: the body finds the block, on the entries inside the array, over
    whatever the buffer held. -/
theorem before_bt (c : Dev nD) (t : Fin cfg0.N) (d) :
    (dats m 0 c).before 0 t d = win0_0.fill (grid0.coords t) d (iblk m c 0 t) := by
  rw [(dats m 0 c).before_fetched 0 t (fetch0_0 t) d]
  unfold Dat.fetched Dat.blockOf iblk; rw [A_eq]
theorem before_at (c : Dev nD) (t : Fin cfg0.N) (d) :
    (dats m 0 c).before 1 t d = win0_1.fill (grid0.coords t) d (iblk m c 1 t) := by
  rw [(dats m 0 c).before_fetched 1 t (fetch0_1 t) d]
  unfold Dat.fetched Dat.blockOf iblk; rw [A_eq]
/-- The accumulator's buffer is fresh at the first point, -/
theorem before_acc_first (c : Dev nD) (t : Fin cfg0.N) (h0 : t.val = 0) (d) : (dats m 0 c).before 2 t d = d :=
  (dats m 0 c).before_out_reset 2 rfl t (.inl h0) d
/-- and afterwards holds what the body left at the point before: it is written back after the last point only. -/
theorem before_acc_later (c : Dev nD) (t : Fin cfg0.N) (h0 : t.val ≠ 0) (d) :
    (dats m 0 c).before 2 t d = accAt m c (t.val - 1) (Nat.lt_of_le_of_lt (Nat.sub_le _ _) t.isLt) := by
  have hN : t.val < 40 := lt_of_lt_of_eq t.isLt (show cfg0.N = 40 from N_0)
  rw [(dats m 0 c).before_of_pos 2 t h0 ((cfg0.win 2).fetch_out rfl t),
    if_neg (by rw [Bool.not_eq_true]; exact Bool.eq_false_iff.mpr fun h => by have := (flush0_2 _).mp h; dsimp only at this; omega)]
  unfold Dat.left
  rw [acc_live_cfg]
  unfold Dat.kept
  rw [Pipeline.fill_of_clip_none (cfg := cfg0) 2 _ (fun _ => rfl) d ((dats m 0 c).after 2 _), Window.fill_cut]
  dsimp only [dats]

end Cert.KernelIdeal.Hand

end
-- ==== Proof.IdealFrame.lean ====
import proofs.«121381_g60258391163021_cont_9to1_m_978_18_alg».proof.Proof.IdealData

set_option maxRecDepth 16384

/-!
# The frame of the kernel: body obligation, run, frame

The body at a grid point is handed the two input staging buffers holding their blocks over arbitrary fillers
(the blocks were just fetched; past the array's end, at the last point, a buffer holds anything) and the
accumulator's buffer — fresh at the first point, else at what the point before left. The point is in exactly
one of the three control cases; that case's run applies, and what it leaves in the accumulator is the next
`accAt`: the fillers do not matter, because before the last point no block is cut and at the last point the
payload selects zero over the cut part. The inputs' buffers come back unchanged, which on the entries inside
the arrays is what the obligation states of them. The launch is the library's frame run for a program that
continues with host lines after the region. Everything is stated for any float instance.
-/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation -/

abbrev ms0 (t : Fin cfg0.N) : Memref sig .tc .vmem S32x2560 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2560x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S32x1024 .f32 := win0_2.stage (cfg0.slots t 2)
abbrev hs2 (t : Fin cfg0.N) : (ms2 t).IsWhole := hstage0_2 ((cfg0.slots t 2).cast nbuf0_2)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns: the inputs' buffers stated on the entries inside the arrays, the accumulator's exactly. -/
def bodyPost (c : Dev nD) (t : Fin cfg0.N) : sProp 𝕄 :=
  iprop((dats m 0 c).Φ t.succ ∗ (dats m 0 c).owesAt () t.succ
    ∗ (∃ d, owns (c : Thread nD τ) (ms0 t) fullShare (win0_0.fill (grid0.coords t) d (win0_0.cut (grid0.coords t) ((dats m 0 c).after 0 t))))
    ∗ (∃ d, owns (c : Thread nD τ) (ms1 t) fullShare (win0_1.fill (grid0.coords t) d (win0_1.cut (grid0.coords t) ((dats m 0 c).after 1 t))))
    ∗ owns (c : Thread nD τ) (ms2 t) fullShare ((dats m 0 c).after 2 t))

set_option maxHeartbeats 1000000 in
/-- The body at the first point: reset, then add. -/
theorem sound_first (c : Dev nD) (t : Fin cfg0.N) (h0 : t.val = 0) :
    bodyPre m c t ⊢ wp frame (wpE (defs₀ (F := F)) Variants.none c none) Set.univ (bodyAt0 t) (fun _ => bodyPost m c t) := by
  have hN : t.val < 40 := lt_of_lt_of_eq t.isLt (show cfg0.N = 40 from N_0)
  have c1 : k0_cond1 (grid0.coords t) = 1#1 := (first_iff t).mpr h0
  have c2 : k0_cond2 (grid0.coords t) = 1#1 := (below_last_iff t).mpr (by omega)
  have c3 : ¬ k0_cond3 (grid0.coords t) = 1#1 := fun h => by have := (last_iff t).mp h; omega
  unfold bodyPre bodyPost bodyAt0
  simp only [before_bt, before_at, before_acc_first m c t h0]
  rw [show (dats m 0 c).Φ t.succ = (dats m 0 c).Φ t.castSucc from rfl,
    show (dats m 0 c).owesAt () t.succ = (dats m 0 c).owesAt () t.castSucc from rfl,
    after_bt, after_at, after_acc,
    show win0_0.cut (grid0.coords t) (btBlock m c t) = iblk m c 0 t from win0_0.cut_fill _ _ _,
    show win0_1.cut (grid0.coords t) (atBlock m c t) = iblk m c 1 t from win0_1.cut_fill _ _ _,
    accAt_first m c t h0]
  iintro ⟨HΦ, Ho, ⟨%d0, H0⟩, ⟨%d1, H1⟩, ⟨%d2, H2⟩⟩
  iapply ((runFirst c (grid0.coords t) (ms0 t) (hs0 t) (ms1 t) (hs1 t) (ms2 t) (hs2 t) c1 c2 c3 (win0_0.fill (grid0.coords t) d0 (iblk m c 0 t)) (win0_1.fill (grid0.coords t) d1 (iblk m c 1 t))).2 Set.univ _)
  isplitl [H0]; · iexact H0
  isplitl [H1]; · iexact H1
  isplitl [H2]; · iexists d2; iexact H2
  iintro ⟨H0, H1, ⟨%e2, H2⟩⟩
  isplitl [HΦ]; · iexact HΦ
  isplitl [Ho]; · iexact Ho
  isplitl [H0]; · iexists d0; iexact H0
  isplitl [H1]; · iexists d1; iexact H1
  unfold owns; iexists _; isplitr
  swap; · iexact H2
  ipureintro
  exact ((View.read_writes_of_cover _ _ accView accView.junk _
      (cover_first c (grid0.coords t) (ms0 t) (hs0 t) (ms1 t) (hs1 t) (ms2 t) (hs2 t) c1 c2 c3 (win0_0.fill (grid0.coords t) d0 (iblk m c 0 t)) (win0_1.fill (grid0.coords t) d1 (iblk m c 1 t)))).trans
    (left_first (F := F) c (grid0.coords t) (ms0 t) (hs0 t) (ms1 t) (hs1 t) (ms2 t) (hs2 t) c1 c2 c3 (win0_0.fill (grid0.coords t) d0 (iblk m c 0 t)) (win0_1.fill (grid0.coords t) d1 (iblk m c 1 t)))).trans
    (by rw [bt_fill_uncut m c t (by omega) d0, at_fill_uncut m c t (by omega) d1])

set_option maxHeartbeats 1000000 in
/-- The body at a middle point: add to what the point before left. -/
theorem sound_middle (c : Dev nD) (t : Fin cfg0.N) (h0 : t.val ≠ 0) (h1 : t.val < 39) :
    bodyPre m c t ⊢ wp frame (wpE (defs₀ (F := F)) Variants.none c none) Set.univ (bodyAt0 t) (fun _ => bodyPost m c t) := by
  have c1 : ¬ k0_cond1 (grid0.coords t) = 1#1 := fun h => h0 ((first_iff t).mp h)
  have c2 : k0_cond2 (grid0.coords t) = 1#1 := (below_last_iff t).mpr h1
  have c3 : ¬ k0_cond3 (grid0.coords t) = 1#1 := fun h => by have := (last_iff t).mp h; omega
  unfold bodyPre bodyPost bodyAt0
  simp only [before_bt, before_at, before_acc_later m c t h0]
  rw [show (dats m 0 c).Φ t.succ = (dats m 0 c).Φ t.castSucc from rfl,
    show (dats m 0 c).owesAt () t.succ = (dats m 0 c).owesAt () t.castSucc from rfl,
    after_bt, after_at, after_acc,
    show win0_0.cut (grid0.coords t) (btBlock m c t) = iblk m c 0 t from win0_0.cut_fill _ _ _,
    show win0_1.cut (grid0.coords t) (atBlock m c t) = iblk m c 1 t from win0_1.cut_fill _ _ _,
    accAt_middle m c t h0 h1]
  iintro ⟨HΦ, Ho, ⟨%d0, H0⟩, ⟨%d1, H1⟩, ⟨%d2, H2⟩⟩
  iapply ((runMiddle c (grid0.coords t) (ms0 t) (hs0 t) (ms1 t) (hs1 t) (ms2 t) (hs2 t) c1 c2 c3 (win0_0.fill (grid0.coords t) d0 (iblk m c 0 t)) (win0_1.fill (grid0.coords t) d1 (iblk m c 1 t)) (accAt m c (t.val - 1) (Nat.lt_of_le_of_lt (Nat.sub_le _ _) t.isLt))).2 Set.univ _)
  isplitl [H0]; · iexact H0
  isplitl [H1]; · iexact H1
  isplitl [H2]; · iexact H2
  iintro ⟨H0, H1, ⟨%e2, H2⟩⟩
  isplitl [HΦ]; · iexact HΦ
  isplitl [Ho]; · iexact Ho
  isplitl [H0]; · iexists d0; iexact H0
  isplitl [H1]; · iexists d1; iexact H1
  unfold owns; iexists _; isplitr
  swap; · iexact H2
  ipureintro
  exact ((View.read_writes_of_cover _ _ accView accView.junk _
      (cover_middle c (grid0.coords t) (ms0 t) (hs0 t) (ms1 t) (hs1 t) (ms2 t) (hs2 t) c1 c2 c3 (win0_0.fill (grid0.coords t) d0 (iblk m c 0 t)) (win0_1.fill (grid0.coords t) d1 (iblk m c 1 t)) (accAt m c (t.val - 1) (Nat.lt_of_le_of_lt (Nat.sub_le _ _) t.isLt)))).trans
    (left_middle (F := F) c (grid0.coords t) (ms0 t) (hs0 t) (ms1 t) (hs1 t) (ms2 t) (hs2 t) c1 c2 c3 (win0_0.fill (grid0.coords t) d0 (iblk m c 0 t)) (win0_1.fill (grid0.coords t) d1 (iblk m c 1 t)) (accAt m c (t.val - 1) (Nat.lt_of_le_of_lt (Nat.sub_le _ _) t.isLt)))).trans
    (by rw [bt_fill_uncut m c t h1 d0, at_fill_uncut m c t h1 d1])

set_option maxHeartbeats 1000000 in
/-- The body at the last point: add the masked product to what the point before left. -/
theorem sound_last (c : Dev nD) (t : Fin cfg0.N) (h39 : t.val = 39) :
    bodyPre m c t ⊢ wp frame (wpE (defs₀ (F := F)) Variants.none c none) Set.univ (bodyAt0 t) (fun _ => bodyPost m c t) := by
  have h0 : t.val ≠ 0 := by omega
  have h1 : ¬ t.val < 39 := by omega
  have c1 : ¬ k0_cond1 (grid0.coords t) = 1#1 := fun h => h0 ((first_iff t).mp h)
  have c2 : ¬ k0_cond2 (grid0.coords t) = 1#1 := fun h => h1 ((below_last_iff t).mp h)
  have c3 : k0_cond3 (grid0.coords t) = 1#1 := (last_iff t).mpr h39
  unfold bodyPre bodyPost bodyAt0
  simp only [before_bt, before_at, before_acc_later m c t h0]
  rw [show (dats m 0 c).Φ t.succ = (dats m 0 c).Φ t.castSucc from rfl,
    show (dats m 0 c).owesAt () t.succ = (dats m 0 c).owesAt () t.castSucc from rfl,
    after_bt, after_at, after_acc,
    show win0_0.cut (grid0.coords t) (btBlock m c t) = iblk m c 0 t from win0_0.cut_fill _ _ _,
    show win0_1.cut (grid0.coords t) (atBlock m c t) = iblk m c 1 t from win0_1.cut_fill _ _ _,
    accAt_last m c t h0 h1]
  iintro ⟨HΦ, Ho, ⟨%d0, H0⟩, ⟨%d1, H1⟩, ⟨%d2, H2⟩⟩
  iapply ((runLast c (grid0.coords t) (ms0 t) (hs0 t) (ms1 t) (hs1 t) (ms2 t) (hs2 t) c1 c2 c3 (win0_0.fill (grid0.coords t) d0 (iblk m c 0 t)) (win0_1.fill (grid0.coords t) d1 (iblk m c 1 t)) (accAt m c (t.val - 1) (Nat.lt_of_le_of_lt (Nat.sub_le _ _) t.isLt))).2 Set.univ _)
  isplitl [H0]; · iexact H0
  isplitl [H1]; · iexact H1
  isplitl [H2]; · iexact H2
  iintro ⟨H0, H1, ⟨%e2, H2⟩⟩
  isplitl [HΦ]; · iexact HΦ
  isplitl [Ho]; · iexact Ho
  isplitl [H0]; · iexists d0; iexact H0
  isplitl [H1]; · iexists d1; iexact H1
  unfold owns; iexists _; isplitr
  swap; · iexact H2
  ipureintro
  exact ((View.read_writes_of_cover _ _ accView accView.junk _
      (cover_last c (grid0.coords t) (ms0 t) (hs0 t) (ms1 t) (hs1 t) (ms2 t) (hs2 t) c1 c2 c3 (win0_0.fill (grid0.coords t) d0 (iblk m c 0 t)) (win0_1.fill (grid0.coords t) d1 (iblk m c 1 t)) (accAt m c (t.val - 1) (Nat.lt_of_le_of_lt (Nat.sub_le _ _) t.isLt)))).trans
    (left_last (F := F) c (grid0.coords t) (ms0 t) (hs0 t) (ms1 t) (hs1 t) (ms2 t) (hs2 t) c1 c2 c3 (win0_0.fill (grid0.coords t) d0 (iblk m c 0 t)) (win0_1.fill (grid0.coords t) d1 (iblk m c 1 t)) (accAt m c (t.val - 1) (Nat.lt_of_le_of_lt (Nat.sub_le _ _) t.isLt)))).trans
    (pay3_filler_irrelevant t h39 d0 (fun _ => Scalar.ofBits .f32 0#32) (iblk m c 0 t) d1 (fun _ => Scalar.ofBits .f32 0#32) (iblk m c 1 t) (accAt m c (t.val - 1) (Nat.lt_of_le_of_lt (Nat.sub_le _ _) t.isLt)))

/-- The body at any point: it is the first, a middle or the last. -/
theorem sound_body (c : Dev nD) (t : Fin cfg0.N) :
    bodyPre m c t ⊢ wp frame (wpE (defs₀ (F := F)) Variants.none c none) Set.univ (bodyAt0 t) (fun _ => bodyPost m c t) := by
  have hN : t.val < 40 := lt_of_lt_of_eq t.isLt (show cfg0.N = 40 from N_0)
  by_cases h0 : t.val = 0
  · exact sound_first m c t h0
  · by_cases h1 : t.val < 39
    · exact sound_middle m c t h0 h1
    · exact sound_last m c t (by omega)

/-- The library's body obligation, at every point: the two clipped inputs are described on the entries inside
    their arrays, the accumulator exactly. -/
theorem body_obligation (c : Dev nD) : BodyObligationLoose (dats (F := F) m 0 c) (defs₀ (F := F)) Variants.none () Set.univ := fun t => by
  rw [bigSep_W0, bigSep_W0]
  rw [acc_live_cfg t]
  exact sound_body m c t
/-! ## The run and the frame -/

set_option backward.isDefEq.respectTransparency.types false in
/-- For any values, from any memory with zero counters: every weakly fair execution of @main terminates, every
    array of the pipeline ends at what the library computes from the proof data, every other unscoped buffer as
    the line after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere, and leaves both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.IdealPayload.lean ====
/-
  The kernel body's three stored values, read at an index at the ideal values (floats the extended reals, the
  format changes the identity, the matrix product an exact sum).

  * the reset value is zero at every index;
  * the accumulate step is acc + x · y, where (x · y)(s, r) = ∑_{j < 2560} x(s, j) · y(j, r);
  * the masked accumulate step is the same with both operands replaced by zero at contraction entries 160 and above:
    the mask compares the contraction coordinate, as a 32-bit signed word, with 160, and for a coordinate below 2560
    that comparison holds exactly when the coordinate is below 160.

  The product's operand indices at output index (s, r) and contraction coordinate j are (s, j) and (j, r): four
  coordinate facts about the dimension numbers (contract axis 1 of the left with axis 0 of the right), and the
  one-axis contraction index is re-indexed by its coordinate.
-/
import proofs.«121381_g60258391163021_cont_9to1_m_978_18_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Hand

open Cert.KernelIdeal Cert.KernelIdeal.Gen Idealize.ShloMosaic Idealize.ShloMosaic.ValueIdx

/-- the reset value is zero -/
theorem pay1_apply (i : S32x1024.Idx) : k0_pay1 (F := Ideal) i = (0 : EReal) := by
  unfold k0_pay1
  exact Ideal.ofBits_zero_f32

/-- the left operand's row coordinate at an output index is the output's row -/
theorem lhs_dot_0 (i : S32x1024.Idx) (q : dot_S32x2560_S2560x1024_S32x1024_1_0_0_1_n_n.contr.Idx) :
    (dot_S32x2560_S2560x1024_S32x1024_1_0_0_1_n_n.lhsIdx i q 0).val = (i 0).val := by
  unfold DotDims.lhsIdx
  rw [dif_neg (show ¬(0 : Fin S32x2560.rank) ∈ dot_S32x2560_S2560x1024_S32x1024_1_0_0_1_n_n.lhsBatch by decide), dif_pos (show (0 : Fin S32x2560.rank) ∈ dot_S32x2560_S2560x1024_S32x1024_1_0_0_1_n_n.lhsNonContracting by decide)]
  rfl
/-- the left operand's column coordinate is the contraction coordinate -/
theorem lhs_dot_1 (i : S32x1024.Idx) (q : dot_S32x2560_S2560x1024_S32x1024_1_0_0_1_n_n.contr.Idx) :
    (dot_S32x2560_S2560x1024_S32x1024_1_0_0_1_n_n.lhsIdx i q 1).val = (q ⟨0, by decide⟩).val :=
  dot_S32x2560_S2560x1024_S32x1024_1_0_0_1_n_n.lhsIdx_val_of_single rfl i q
/-- the right operand's row coordinate is the contraction coordinate -/
theorem rhs_dot_0 (i : S32x1024.Idx) (q : dot_S32x2560_S2560x1024_S32x1024_1_0_0_1_n_n.contr.Idx) :
    (dot_S32x2560_S2560x1024_S32x1024_1_0_0_1_n_n.rhsIdx i q 0).val = (q ⟨0, by decide⟩).val :=
  dot_S32x2560_S2560x1024_S32x1024_1_0_0_1_n_n.rhsIdx_val_of_single rfl i q
/-- the right operand's column coordinate at an output index is the output's column -/
theorem rhs_dot_1 (i : S32x1024.Idx) (q : dot_S32x2560_S2560x1024_S32x1024_1_0_0_1_n_n.contr.Idx) :
    (dot_S32x2560_S2560x1024_S32x1024_1_0_0_1_n_n.rhsIdx i q 1).val = (i 1).val := by
  unfold DotDims.rhsIdx
  rw [dif_neg (show ¬(1 : Fin S2560x1024.rank) ∈ dot_S32x2560_S2560x1024_S32x1024_1_0_0_1_n_n.rhsBatch by decide), dif_pos (show (1 : Fin S2560x1024.rank) ∈ dot_S32x2560_S2560x1024_S32x1024_1_0_0_1_n_n.rhsNonContracting by decide)]
  rfl

/-- the matrix product into the zero accumulator, at an index: the exact sum over the 2560 contraction entries -/
theorem matmul_zero_apply {φ₁ φ₂ : FTy} (x : FVec Ideal S32x2560 φ₁) (y : FVec Ideal S2560x1024 φ₂) (s : Fin 32) (r : Fin 1024) :
    matmul (F := Ideal) dot_S32x2560_S2560x1024_S32x1024_1_0_0_1_n_n none x y (constant (F := Ideal) S32x1024 .f32 0x00000000#32) (ix2 s r)
      = (∑ j : Fin 2560, x (ix2 s j) * y (ix2 j r) : EReal) := by
  refine (Ideal.matmul_constant_zero_apply dot_S32x2560_S2560x1024_S32x1024_1_0_0_1_n_n none x y (ix2 s r)).trans ?_
  rw [← Equiv.sum_comp (ValueIdx.contrEquiv1 dot_S32x2560_S2560x1024_S32x1024_1_0_0_1_n_n 2560 rfl rfl).symm]
  refine Finset.sum_congr rfl fun k _ => ?_
  have hk := ValueIdx.contrEquiv1_symm_val dot_S32x2560_S2560x1024_S32x1024_1_0_0_1_n_n 2560 rfl rfl k
  have el : dot_S32x2560_S2560x1024_S32x1024_1_0_0_1_n_n.lhsIdx (ix2 s r) ((ValueIdx.contrEquiv1 dot_S32x2560_S2560x1024_S32x1024_1_0_0_1_n_n 2560 rfl rfl).symm k) = ix2 s k := funext fun a => Fin.ext (by
    match a with
    | ⟨0, _⟩ => exact lhs_dot_0 _ _
    | ⟨1, _⟩ => exact (lhs_dot_1 _ _).trans hk)
  have er : dot_S32x2560_S2560x1024_S32x1024_1_0_0_1_n_n.rhsIdx (ix2 s r) ((ValueIdx.contrEquiv1 dot_S32x2560_S2560x1024_S32x1024_1_0_0_1_n_n 2560 rfl rfl).symm k) = ix2 k r := funext fun a => Fin.ext (by
    match a with
    | ⟨0, _⟩ => exact (rhs_dot_0 _ _).trans hk
    | ⟨1, _⟩ => exact rhs_dot_1 _ _)
  rw [el, er]

/-- accumulate: acc + (x · y), the matrix product an exact sum over the 2560 contraction entries -/
theorem pay2_apply (acc : Vec Ideal S32x1024 .f32) (x : Vec Ideal S32x2560 .f32) (y : Vec Ideal S2560x1024 .f32) (s : Fin 32) (r : Fin 1024) :
    k0_pay2 (F := Ideal) acc x y (ix2 s r) = (acc (ix2 s r) + ∑ j : Fin 2560, x (ix2 s j) * y (ix2 j r) : EReal) := by
  unfold k0_pay2
  simp only [shapeCast_self]
  exact congrArg (acc (ix2 s r) + ·)
    (matmul_zero_apply (truncf (F := Ideal) .bf16 x bitsLt_bf16_f32) (truncf (F := Ideal) .bf16 y bitsLt_bf16_f32) s r)

/-- a natural number below 2³¹, as a 32-bit word read signed, is itself -/
theorem toInt_ofNat_of_lt (n : Nat) (hn : n < 2 ^ 31) : (BitVec.ofNat 32 n).toInt = n := by
  rw [BitVec.toInt_eq_msb_cond, BitVec.msb_eq_false_iff_two_mul_lt.mpr (by simp [BitVec.toNat_ofNat]; omega)]
  simp [BitVec.toNat_ofNat]; omega

/-- for a contraction coordinate n < 2560, the signed comparison of the word n with the word 160 holds exactly when n < 160 -/
theorem slt_160_iff (n : Nat) (hn : n < 2560) : IntOp.cmpi .slt (BitVec.ofNat 32 n) 160#32 = 1#1 ↔ n < 160 := by
  have h1 : (BitVec.ofNat 32 n).toInt = n := toInt_ofNat_of_lt n (by omega)
  have h2 : (160#32 : BitVec 32).toInt = 160 := by decide
  unfold IntOp.cmpi
  simp only [BitVec.slt, h1, h2]
  by_cases h : n < 160
  · simp [h]
  · simp [h]

/-- a select on that comparison is the choice on n < 160 -/
theorem select_lt160 {α : Type} (n : Nat) (hn : n < 2560) (a b : α) :
    Scalar.select (IntOp.cmpi .slt (BitVec.ofNat 32 n) 160#32) a b = if n < 160 then a else b := by
  unfold Scalar.select
  by_cases h : n < 160
  · exact (if_pos ((slt_160_iff n hn).mpr h)).trans (if_pos h).symm
  · exact (if_neg (fun e => h ((slt_160_iff n hn).mp e))).trans (if_neg h).symm

/-- the left operand masked along its contraction axis (axis 1), at an index: the entry where the contraction coordinate is below 160, zero elsewhere -/
theorem maskx_apply (x : FVec Ideal S32x2560 .f32) (s : Fin 32) (j : Fin 2560) :
    select (cmpi .slt (iota .tc S32x2560 32 [1] iota_S32x2560_d1_w32) (broadcast S32x2560 160#32)) x
        (broadcast S32x2560 (Scalar.ofBits (F := Ideal) .f32 0x00000000#32)) (ix2 s j)
      = (if j.val < 160 then x (ix2 s j) else 0 : EReal) := by
  show Scalar.select (IntOp.cmpi .slt (iota .tc S32x2560 32 [1] iota_S32x2560_d1_w32 (ix2 s j)) 160#32) (x (ix2 s j)) (Ideal.ofBits .f32 0x00000000#32) = _
  rw [iota_single_apply, Ideal.ofBits_zero_f32]
  exact select_lt160 j.val j.isLt _ _

/-- the right operand masked along its contraction axis (axis 0), at an index: the entry where the contraction coordinate is below 160, zero elsewhere -/
theorem masky_apply (y : FVec Ideal S2560x1024 .f32) (j : Fin 2560) (r : Fin 1024) :
    select (cmpi .slt (iota .tc S2560x1024 32 [0] iota_S2560x1024_d0_w32) (broadcast S2560x1024 160#32)) y
        (broadcast S2560x1024 (Scalar.ofBits (F := Ideal) .f32 0x00000000#32)) (ix2 j r)
      = (if j.val < 160 then y (ix2 j r) else 0 : EReal) := by
  show Scalar.select (IntOp.cmpi .slt (iota .tc S2560x1024 32 [0] iota_S2560x1024_d0_w32 (ix2 j r)) 160#32) (y (ix2 j r)) (Ideal.ofBits .f32 0x00000000#32) = _
  rw [iota_single_apply, Ideal.ofBits_zero_f32]
  exact select_lt160 j.val j.isLt _ _

/-- masked accumulate: both operands replaced by zero at contraction entries 160 and above -/
theorem pay3_apply (x : Vec Ideal S32x2560 .f32) (y : Vec Ideal S2560x1024 .f32) (acc : Vec Ideal S32x1024 .f32) (s : Fin 32) (r : Fin 1024) :
    k0_pay3 (F := Ideal) x y acc (ix2 s r) = (acc (ix2 s r) + ∑ j : Fin 2560, (if j.val < 160 then x (ix2 s j) else 0) * (if j.val < 160 then y (ix2 j r) else 0) : EReal) := by
  unfold k0_pay3
  simp only [shapeCast_self]
  refine congrArg (acc (ix2 s r) + ·) ((matmul_zero_apply _ _ s r).trans ?_)
  exact Finset.sum_congr rfl fun j _ => congrArg₂ (· * ·) (maskx_apply x s j) (masky_apply y j r)

end Cert.KernelIdeal.Hand

end
-- ==== Proof.IdealBlocks.lean ====
/-
  The two input blocks of the transposed product, read entry by entry, for any float instance.

  The region computes (A B)^T = B^T A^T on operands the host has transposed beforehand: bt = B^T of shape
  [32, 100000] and at = A^T of shape [100000, 1024]. The contraction axis, of length 100000, is walked in 40 blocks of
  2560; 39 * 2560 = 99840, so the last block has only 160 entries inside the arrays and overhangs their end by 2400.

  This module says what each block holds at an index:
    * bt[s, k] = B[k, s] and at[k, r] = A[r, k] (the two transposes the host performs before the region);
    * point t's block of bt, filled out past the array's end with arbitrary contents d, has at (s, j) the entry
      bt[s, 2560 t + j] when 2560 t + j < 100000 and d (s, j) otherwise; the block of at likewise at (j, r).
  The coordinate of a block entry in the array is always (block index) * (block size) + (coordinate in the block); the
  block indices and the cut sizes of the two windows are decided once over the forty points.
-/
import proofs.«121381_g60258391163021_cont_9to1_m_978_18_alg».proof.Proof.Gen.KernelIdeal.Frame
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Window)

variable {F : FTy → Type} [FloatOps F]
variable (m : (ℓ : Loc nD τ sig) → Buf (Elt F) ℓ)

/-- the region finds B transposed: bt[s, k] = B[k, s] -/
theorem bt_entry (c : Dev nD) (s : Fin 32) (k : Fin 100000) :
    (V m c main_v1 : S32x100000.Idx → Elt F .f32) (ix2 s k) = (m ((c : Thread nD τ).loc main_arg1) : S100000x32.Idx → Elt F .f32) (ix2 k s) := by
  have e : (V m c main_v1 : S32x100000.Idx → Elt F .f32)
      = transpose S32x100000 [1, 0] (m ((c : Thread nD τ).loc main_arg1) : S100000x32.Idx → Elt F .f32) transposes_S100000x32_S32x100000_1_0 := by
    -- of the two host operations before the region, the second writes this array: the transpose of B
    show StableHlo.after hostOps0 (fun b => m (c, b)) (Proc.devRef .tc main_v1) = _
    after_results
  rw [e]
  exact transpose_apply _ _ _ _ _ fun b => match b with | ⟨0, _⟩ => rfl | ⟨1, _⟩ => rfl

/-- and A transposed: at[k, r] = A[r, k] -/
theorem at_entry (c : Dev nD) (k : Fin 100000) (r : Fin 1024) :
    (V m c main_v0 : S100000x1024.Idx → Elt F .f32) (ix2 k r) = (m ((c : Thread nD τ).loc main_arg0) : S1024x100000.Idx → Elt F .f32) (ix2 r k) := by
  have e : (V m c main_v0 : S100000x1024.Idx → Elt F .f32)
      = transpose S100000x1024 [1, 0] (m ((c : Thread nD τ).loc main_arg0) : S1024x100000.Idx → Elt F .f32) transposes_S1024x100000_S100000x1024_1_0 := by
    -- of the two host operations before the region, the first writes this array: the transpose of A
    show StableHlo.after hostOps0 (fun b => m (c, b)) (Proc.devRef .tc main_v0) = _
    after_results
  rw [e]
  exact transpose_apply _ _ _ _ _ fun b => match b with | ⟨0, _⟩ => rfl | ⟨1, _⟩ => rfl

/-- Window 0's index map and cuts over the forty points: block row 0, block column t, all 32 rows moved,
    and of the 2560 columns the first min 2560 (100000 - 2560 t). -/
theorem btWindow_cuts : ∀ t : Fin cfg0.N, win0_0.index t 0 = 0 ∧ win0_0.index t 1 = t.val
      ∧ win0_0.xsize (grid0.coords t) 0 = 32 ∧ win0_0.xsize (grid0.coords t) 1 = min 2560 (100000 - 2560 * t.val) :=
  (by decide +kernel : ∀ t : Fin grid0.N, win0_0.index t 0 = 0 ∧ win0_0.index t 1 = t.val
      ∧ win0_0.xsize (grid0.coords t) 0 = 32 ∧ win0_0.xsize (grid0.coords t) 1 = min 2560 (100000 - 2560 * t.val))

/-- Window 1's likewise: block row t, block column 0. -/
theorem atWindow_cuts : ∀ t : Fin cfg0.N, win0_1.index t 0 = t.val ∧ win0_1.index t 1 = 0
      ∧ win0_1.xsize (grid0.coords t) 0 = min 2560 (100000 - 2560 * t.val) ∧ win0_1.xsize (grid0.coords t) 1 = 1024 :=
  (by decide +kernel : ∀ t : Fin grid0.N, win0_1.index t 0 = t.val ∧ win0_1.index t 1 = 0
      ∧ win0_1.xsize (grid0.coords t) 0 = min 2560 (100000 - 2560 * t.val) ∧ win0_1.xsize (grid0.coords t) 1 = 1024)

/-- point t's block of bt, filled out with d past the array's end: entry (s, j) is bt[s, 2560 t + j] where that lies inside the array -/
theorem btBlock_apply (c : Dev nD) (t : Fin cfg0.N) (d : S32x2560.Idx → Elt F .f32) (s : Fin 32) (j : Fin 2560) :
    win0_0.fill (grid0.coords t) d (iblk m c 0 t) (ix2 s j)
      = if h : 2560 * t.val + j.val < 100000 then (V m c main_v1 : S32x100000.Idx → Elt F .f32) (ix2 s ⟨2560 * t.val + j.val, h⟩) else d (ix2 s j) := by
  obtain ⟨h0, h1, hx0, hx1⟩ := btWindow_cuts t
  have ht : t.val < 40 := t.isLt
  -- (s, j) lies in the part of the block inside the array iff column 2560 t + j is below 100000: all 32 rows are
  -- kept, and of the columns the first min 2560 (100000 - 2560 t)
  have hmv : win0_0.moved (grid0.coords t) (ix2 s j) = true ↔ 2560 * t.val + j.val < 100000 := by
    rw [Window.moved_iff]
    constructor
    · intro h
      have h' : j.val < win0_0.xsize (grid0.coords t) 1 := h 1
      rw [hx1] at h'; omega
    · intro h a
      match a with
      | ⟨0, _⟩ => show s.val < win0_0.xsize (grid0.coords t) 0; rw [hx0]; exact s.isLt
      | ⟨1, _⟩ => show j.val < win0_0.xsize (grid0.coords t) 1; rw [hx1]; have := j.isLt; omega
  by_cases h : 2560 * t.val + j.val < 100000
  · rw [dif_pos h]
    unfold Window.fill
    rw [dif_pos (hmv.mpr h)]
    unfold iblk
    rw [View.read_apply]
    -- inside the array the block entry is the array's entry at row 0 * 32 + s, column t * 2560 + j
    show (V m c main_v1 : S32x100000.Idx → Elt F .f32) _ = (V m c main_v1 : S32x100000.Idx → Elt F .f32) _
    refine congrArg (V m c main_v1 : S32x100000.Idx → Elt F .f32) (funext fun a => Fin.ext ?_)
    match a with
    | ⟨0, _⟩ => show win0_0.index t 0 * 32 + 1 * s.val = s.val; rw [h0]; omega
    | ⟨1, _⟩ => show win0_0.index t 1 * 2560 + 1 * j.val = 2560 * t.val + j.val; rw [h1]; omega
  · -- past the array's end the filler shows through
    rw [dif_neg h]
    exact Window.fill_of_not_moved _ _ _ _ (by rw [hmv]; exact h)

/-- point t's block of at likewise: entry (j, r) is at[2560 t + j, r] -/
theorem atBlock_apply (c : Dev nD) (t : Fin cfg0.N) (d : S2560x1024.Idx → Elt F .f32) (j : Fin 2560) (r : Fin 1024) :
    win0_1.fill (grid0.coords t) d (iblk m c 1 t) (ix2 j r)
      = if h : 2560 * t.val + j.val < 100000 then (V m c main_v0 : S100000x1024.Idx → Elt F .f32) (ix2 ⟨2560 * t.val + j.val, h⟩ r) else d (ix2 j r) := by
  obtain ⟨h0, h1, hx0, hx1⟩ := atWindow_cuts t
  have ht : t.val < 40 := t.isLt
  -- (j, r) lies in the part of the block inside the array iff row 2560 t + j is below 100000: all 1024 columns are
  -- kept, and of the rows the first min 2560 (100000 - 2560 t)
  have hmv : win0_1.moved (grid0.coords t) (ix2 j r) = true ↔ 2560 * t.val + j.val < 100000 := by
    rw [Window.moved_iff]
    constructor
    · intro h
      have h' : j.val < win0_1.xsize (grid0.coords t) 0 := h 0
      rw [hx0] at h'; omega
    · intro h a
      match a with
      | ⟨0, _⟩ => show j.val < win0_1.xsize (grid0.coords t) 0; rw [hx0]; have := j.isLt; omega
      | ⟨1, _⟩ => show r.val < win0_1.xsize (grid0.coords t) 1; rw [hx1]; exact r.isLt
  by_cases h : 2560 * t.val + j.val < 100000
  · rw [dif_pos h]
    unfold Window.fill
    rw [dif_pos (hmv.mpr h)]
    unfold iblk
    rw [View.read_apply]
    -- inside the array the block entry is the array's entry at row t * 2560 + j, column 0 * 1024 + r
    show (V m c main_v0 : S100000x1024.Idx → Elt F .f32) _ = (V m c main_v0 : S100000x1024.Idx → Elt F .f32) _
    refine congrArg (V m c main_v0 : S100000x1024.Idx → Elt F .f32) (funext fun a => Fin.ext ?_)
    match a with
    | ⟨0, _⟩ => show win0_1.index t 0 * 2560 + 1 * j.val = 2560 * t.val + j.val; rw [h0]; omega
    | ⟨1, _⟩ => show win0_1.index t 1 * 1024 + 1 * r.val = r.val; rw [h1]; omega
  · -- past the array's end the filler shows through
    rw [dif_neg h]
    exact Window.fill_of_not_moved _ _ _ _ (by rw [hmv]; exact h)

end Cert.KernelIdeal.Hand

end
-- ==== Proof.IdealTail.lean ====
/-
  What happens to the accumulator after the last grid point, for any proof data and any float instance.

  The (32, 1024) accumulator is the one block of its own array: its block index is (0, 0) at every point, the
  block is not cut, and so entry j of the block is entry j of the array and the block covers the array. It is
  written back at the last point only. Hence the array ends holding exactly what the body left in the block at
  the last point. The one host line after the region transposes that array into the (1024, 32) result, so
  result[r, s] = accumulator[s, r].
-/
import proofs.«121381_g60258391163021_cont_9to1_m_978_18_alg».proof.Proof.Gen.KernelIdeal.Frame
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

variable {F : FTy → Type} [FloatOps F]
variable (m : (ℓ : Loc nD τ sig) → Buf (Elt F) ℓ)

/-! ## The host line after the region -/

/-- the result is the accumulator's array transposed: out[r, s] = acc[s, r] -/
theorem result_entry (dats : (p : Fin 1) → (c : Dev nD) → Dat τ (Elt F) Unit ℕ (UR sig nD τ) ℕ (cfgs p) c) (c : Dev nD) (r : Fin 1024) (s : Fin 32) :
    (Pipeline.afterTail₀ cfgs dats 0 (V0 m) [hostOps1] c main_v3 : S1024x32.Idx → Elt F .f32) (ix2 r s)
      = ((dats 0 c).arrAt 2 cfg0.N : S32x1024.Idx → Elt F .f32) (ix2 s r) := by
  unfold Pipeline.afterTail₀
  show StableHlo.after hostOps1 _ (Proc.devRef .tc main_v3) (ix2 r s) = _
  after_results
  refine (transpose_apply _ _ _ (ix2 r s) (ix2 s r) (fun b => match b with | ⟨0, _⟩ => rfl | ⟨1, _⟩ => rfl)).trans ?_
  exact congrFun (Pipeline.withArrays_arr spec0 launch0.win.arr_inj c _ _ 2) (ix2 s r)

/-! ## The write-back of the accumulator -/

/-- the accumulator's block index is (0, 0) at every point -/
private theorem acc_index (t : Fin cfg0.N) (a : Fin S32x1024.rank) : (cfg0.win 2).index t a = 0 :=
  match a with
  | ⟨0, _⟩ => rfl
  | ⟨1, _⟩ => rfl

/-- so the block sits in the array as the array itself: entry j of the block is entry j of the array -/
private theorem acc_emb (t : Fin cfg0.N) (j : S32x1024.Idx) : ((cfg0.win 2).blk t).view.emb j = j := by
  funext a
  apply Fin.ext
  show (cfg0.win 2).index t a * S32x1024.size a + 1 * (j a).val = (j a).val
  rw [acc_index, Nat.zero_mul, Nat.zero_add, Nat.one_mul]

/-- and every entry of the array is in the block -/
private theorem acc_mem (t : Fin cfg0.N) (i : S32x1024.Idx) : i ∈ ((cfg0.win 2).blk t).view.set := by
  have h := ((cfg0.win 2).blk t).view.emb_mem_set i
  rwa [acc_emb] at h

/-- the accumulator's one block is its whole array and is written back at the last point only: the array ends holding what the body left there -/
theorem accumulator_written_back (dats : (p : Fin 1) → (c : Dev nD) → Dat τ (Elt F) Unit ℕ (UR sig nD τ) ℕ (cfgs p) c) (c : Dev nD) (t : Fin cfg0.N) (ht : t.val = 39) :
    ((dats 0 c).arrAt 2 cfg0.N : S32x1024.Idx → Elt F .f32) = ((dats 0 c).after 2 t : S32x1024.Idx → Elt F .f32) := by
  have h40 : cfg0.N = 40 := N_0
  refine Dat.arrAt_eq_of_cover (dats 0 c) 2 ((dats 0 c).after 2 t) (fun t' hf => ?_)
    (fun i => ⟨t, (flush0_2 t).mpr (by omega), acc_mem t i⟩)
  -- the one point that writes back is the last one
  have ht' : t' = t := Fin.ext (by have h1 := (flush0_2 t').mp hf; have h2 := t'.isLt; omega)
  subst ht'
  funext j
  show (dats 0 c).after 2 t' ((cfg0.win 2).xinj (cfg0.grid.coords t') j) = (dats 0 c).after 2 t' (((cfg0.win 2).blk t').view.emb j)
  rw [acc_emb]

end Cert.KernelIdeal.Hand

end
-- ==== Proof.Spec.lean ====
import Idealize.ShloMosaic.PureOps.Ideal
import Idealize.ShloMosaic.Lib.ValueIdx
import Mathlib.Algebra.BigOperators.Fin
import Mathlib.Algebra.BigOperators.Group.Finset.Basic
import Mathlib.Data.EReal.Basic

noncomputable section

open scoped BigOperators

namespace Cert.Spec

open Idealize.ShloMosaic Idealize.ShloMosaic.ValueIdx

/-- A sum over the first `n * b` naturals, cut into `n` consecutive blocks of length `b`:
    Σ_{k < n·b} f k = Σ_{t < n} Σ_{j < b} f (b·t + j). Only commutativity and associativity of `+` are used. -/
theorem sum_range_mul_blocks {M : Type*} [AddCommMonoid M] (f : ℕ → M) (b n : ℕ) :
    ∑ k ∈ Finset.range (n * b), f k = ∑ t ∈ Finset.range n, ∑ j ∈ Finset.range b, f (b * t + j) := by
  induction n with
  | zero => simp
  | succ n ih =>
    rw [Nat.succ_mul, Finset.sum_range_add, ih, Finset.sum_range_succ, Nat.mul_comm n b]

/-- If `f` vanishes from `N` on and `N ≤ n·b`, the sum of `f` below `N` is the sum of its `n` blocks of length `b`:
    the blocks cover `[0, N)` exactly once and what they cover beyond `N` adds zeros. -/
theorem sum_range_eq_sum_blocks {M : Type*} [AddCommMonoid M] (f : ℕ → M) (N b n : ℕ) (hN : N ≤ n * b)
    (hf : ∀ k, N ≤ k → f k = 0) :
    ∑ k ∈ Finset.range N, f k = ∑ t ∈ Finset.range n, ∑ j ∈ Finset.range b, f (b * t + j) := by
  rw [← sum_range_mul_blocks]
  refine Finset.sum_subset (Finset.range_subset_range.2 hN) ?_
  intro k _ hk
  exact hf k (by simpa using hk)

/-- out[r, s] = Σ_k A[r, k] · B[k, s] -/
def weightedRead (A : (⟨2, ![1024, 100000]⟩ : Shape).Idx → EReal) (B : (⟨2, ![100000, 32]⟩ : Shape).Idx → EReal) :
    (⟨2, ![1024, 32]⟩ : Shape).Idx → EReal :=
  fun i => ∑ k : Fin 100000, A (ix2 (i 0) k) * B (ix2 k (i 1))

/-- contraction block t's share of entry (r, s), factors in the kernel's order -/
def blockShare (A : (⟨2, ![1024, 100000]⟩ : Shape).Idx → EReal) (B : (⟨2, ![100000, 32]⟩ : Shape).Idx → EReal)
    (r : Fin 1024) (s : Fin 32) (t : ℕ) : EReal :=
  ∑ j : Fin 2560, if h : 2560 * t + j.val < 100000 then B (ix2 ⟨2560 * t + j.val, h⟩ s) * A (ix2 r ⟨2560 * t + j.val, h⟩) else 0

/-- The contraction over k < 100000 is the sum of the 40 block shares: every k is 2560·t + j for exactly one
    (t, j) with t < 40, j < 2560, the pairs with 2560·t + j ≥ 100000 add zero, and the two factors commute.
    No finiteness of the entries is needed: the extended reals are a commutative monoid under + and under ·. -/
theorem weightedRead_eq_sum_blockShare (A : (⟨2, ![1024, 100000]⟩ : Shape).Idx → EReal)
    (B : (⟨2, ![100000, 32]⟩ : Shape).Idx → EReal) (i : (⟨2, ![1024, 32]⟩ : Shape).Idx) :
    weightedRead A B i = ∑ t ∈ Finset.range 40, blockShare A B (i 0) (i 1) t := by
  -- the summand as a function on ℕ, zero from 100000 on, factors already in the kernel's order
  let f : ℕ → EReal := fun k =>
    if h : k < 100000 then B (ix2 ⟨k, h⟩ (i 1)) * A (ix2 (i 0) ⟨k, h⟩) else 0
  have hL : weightedRead A B i = ∑ k ∈ Finset.range 100000, f k := by
    rw [Finset.sum_range]
    refine Finset.sum_congr rfl fun k _ => ?_
    show A (ix2 (i 0) k) * B (ix2 k (i 1)) = f k.val
    simp only [f, dif_pos k.isLt, Fin.eta]
    exact mul_comm _ _
  have hR : ∀ t, blockShare A B (i 0) (i 1) t = ∑ j ∈ Finset.range 2560, f (2560 * t + j) := by
    intro t
    rw [Finset.sum_range]
    rfl
  rw [hL, sum_range_eq_sum_blocks f 100000 2560 40 (by norm_num) (fun k hk => dif_neg (Nat.not_lt.2 hk))]
  exact Finset.sum_congr rfl fun t _ => (hR t).symm

end Cert.Spec
-- ==== Proof.IdealValue.lean ====
/-
  The accumulator of the transposed product, point by point, and the result buffer, at the ideal values.

  The region computes (A B)^T = B^T A^T over forty blocks of 2560 along the contraction axis of length 100000.
  With k = 2560 t + j, point t's block of B^T holds B[k, s] at (s, j) and its block of A^T holds A[r, k] at (j, r)
  wherever k < 100000, and zero (the filler chosen for the entries past the arrays' end) elsewhere. So term j of
  the block product at output entry (s, r) is B[k, s] · A[r, k] inside the arrays and 0 · 0 = 0 past their end:
  term j of contraction block t's share of entry (r, s) of A B. At the last point, t = 39, the payload first replaces
  both operands by zero at j ≥ 160; since 2560 · 39 + j < 100000 exactly when j < 160, the masked term is the same.

  Hence, by induction on the point, the accumulator after point n holds at (s, r) the sum of the shares of blocks
  0..n (point 0 adds its share to the reset value zero), and after point 39 the sum of all forty shares, which is
  the full contraction Σ_k A[r, k] · B[k, s]. The accumulator's array is written back after the last point and the
  host transposes it into the result, so result[r, s] = Σ_k A[r, k] · B[k, s].
-/
import proofs.«121381_g60258391163021_cont_9to1_m_978_18_alg».proof.Proof.IdealData
import proofs.«121381_g60258391163021_cont_9to1_m_978_18_alg».proof.Proof.IdealPayload
import proofs.«121381_g60258391163021_cont_9to1_m_978_18_alg».proof.Proof.IdealBlocks
import proofs.«121381_g60258391163021_cont_9to1_m_978_18_alg».proof.Proof.IdealTail
import proofs.«121381_g60258391163021_cont_9to1_m_978_18_alg».proof.Proof.Spec

noncomputable section

namespace Cert.KernelIdeal.Hand

open Cert.KernelIdeal Cert.KernelIdeal.Gen Idealize.ShloMosaic Idealize.ShloMosaic.TcCoe Idealize.ShloMosaic.ValueIdx
open Idealize.ShloMosaic.Pipeline (Dat)

variable (m : (ℓ : Loc nD τ sig) → Buf (Elt Ideal) ℓ)

/-- the first operand A : [1024, 100000] and the second B : [100000, 32], as launched on core c -/
abbrev argA (c : Dev nD) : S1024x100000.Idx → EReal := m ((c : Thread nD τ).loc main_arg0)
/-- the second operand B : [100000, 32], as launched on core c -/
abbrev argB (c : Dev nD) : S100000x32.Idx → EReal := m ((c : Thread nD τ).loc main_arg1)

/-! ## One entry of each input block -/

/-- point t's block of B^T at (s, j): B[2560 t + j, s] where 2560 t + j < 100000, zero past the array's end -/
theorem btBlock_entry (c : Dev nD) (t : Fin cfg0.N) (s : Fin 32) (j : Fin 2560) :
    (btBlock (F := Ideal) m c t (ix2 s j) : EReal)
      = if h : 2560 * t.val + j.val < 100000 then argB m c (ix2 ⟨2560 * t.val + j.val, h⟩ s) else 0 := by
  unfold btBlock
  refine (btBlock_apply m c t _ s j).trans ?_
  by_cases h : 2560 * t.val + j.val < 100000
  · rw [dif_pos h, dif_pos h]
    exact bt_entry m c s _
  · rw [dif_neg h, dif_neg h]
    exact Ideal.ofBits_zero_f32

/-- point t's block of A^T at (j, r): A[r, 2560 t + j] where 2560 t + j < 100000, zero past the array's end -/
theorem atBlock_entry (c : Dev nD) (t : Fin cfg0.N) (j : Fin 2560) (r : Fin 1024) :
    (atBlock (F := Ideal) m c t (ix2 j r) : EReal)
      = if h : 2560 * t.val + j.val < 100000 then argA m c (ix2 r ⟨2560 * t.val + j.val, h⟩) else 0 := by
  unfold atBlock
  refine (atBlock_apply m c t _ j r).trans ?_
  by_cases h : 2560 * t.val + j.val < 100000
  · rw [dif_pos h, dif_pos h]
    exact at_entry m c _ r
  · rw [dif_neg h, dif_neg h]
    exact Ideal.ofBits_zero_f32

/-! ## One term of a block product -/

/-- term j of the block product at point t, entry (s, r): B[k, s] · A[r, k] with k = 2560 t + j inside the arrays,
    0 · 0 = 0 past their end -/
theorem block_term (c : Dev nD) (t : Fin cfg0.N) (s : Fin 32) (r : Fin 1024) (j : Fin 2560) :
    (btBlock (F := Ideal) m c t (ix2 s j) * atBlock (F := Ideal) m c t (ix2 j r) : EReal)
      = if h : 2560 * t.val + j.val < 100000
          then argB m c (ix2 ⟨2560 * t.val + j.val, h⟩ s) * argA m c (ix2 r ⟨2560 * t.val + j.val, h⟩) else 0 := by
  refine (congrArg₂ (· * ·) (btBlock_entry m c t s j) (atBlock_entry m c t j r)).trans ?_
  by_cases h : 2560 * t.val + j.val < 100000
  · simp only [dif_pos h]
  · simp only [dif_neg h, mul_zero]

/-- term j of the masked block product at the last point: 2560 · 39 + j < 100000 exactly when j < 160, so the mask
    keeps the entries inside the arrays and the term is again B[k, s] · A[r, k] there and 0 · 0 = 0 elsewhere -/
theorem masked_term (c : Dev nD) (t : Fin cfg0.N) (ht : t.val = 39) (s : Fin 32) (r : Fin 1024) (j : Fin 2560) :
    ((if j.val < 160 then btBlock (F := Ideal) m c t (ix2 s j) else 0)
        * (if j.val < 160 then atBlock (F := Ideal) m c t (ix2 j r) else 0) : EReal)
      = if h : 2560 * t.val + j.val < 100000
          then argB m c (ix2 ⟨2560 * t.val + j.val, h⟩ s) * argA m c (ix2 r ⟨2560 * t.val + j.val, h⟩) else 0 := by
  by_cases h : 2560 * t.val + j.val < 100000
  · have hj : j.val < 160 := by omega
    simp only [if_pos hj]
    exact block_term m c t s r j
  · have hj : ¬ j.val < 160 := by omega
    simp only [if_neg hj, dif_neg h, mul_zero]

/-! ## A block product is the block's share -/

/-- the block product at point t, entry (s, r), is contraction block t's share of entry (r, s) of A B -/
theorem block_product (c : Dev nD) (t : Fin cfg0.N) (s : Fin 32) (r : Fin 1024) :
    (∑ j : Fin 2560, btBlock (F := Ideal) m c t (ix2 s j) * atBlock (F := Ideal) m c t (ix2 j r) : EReal)
      = Cert.Spec.blockShare (argA m c) (argB m c) r s t.val := by
  unfold Cert.Spec.blockShare
  exact Finset.sum_congr rfl fun j _ => block_term m c t s r j

/-- and so is the masked block product at the last point -/
theorem masked_product (c : Dev nD) (t : Fin cfg0.N) (ht : t.val = 39) (s : Fin 32) (r : Fin 1024) :
    (∑ j : Fin 2560, (if j.val < 160 then btBlock (F := Ideal) m c t (ix2 s j) else 0)
        * (if j.val < 160 then atBlock (F := Ideal) m c t (ix2 j r) else 0) : EReal)
      = Cert.Spec.blockShare (argA m c) (argB m c) r s t.val := by
  unfold Cert.Spec.blockShare
  exact Finset.sum_congr rfl fun j _ => masked_term m c t ht s r j

/-! ## The accumulator -/

/-- after point n the accumulator's entry (s, r) is the sum of the shares of contraction blocks 0..n of entry (r, s) of A·B -/
theorem accAt_entry (c : Dev nD) (n : ℕ) (hn : n < cfg0.N) (s : Fin 32) (r : Fin 1024) :
    accAt (F := Ideal) m c n hn (ix2 s r) = ∑ u ∈ Finset.range (n + 1), Cert.Spec.blockShare (argA m c) (argB m c) r s u := by
  induction n with
  | zero =>
    -- point 0: the reset value zero plus the first block product
    refine (congrFun (accAt_first m c ⟨0, hn⟩ rfl) (ix2 s r)).trans ?_
    refine (pay2_apply _ _ _ s r).trans ?_
    refine (congrArg₂ (· + ·) (pay1_apply (ix2 s r)) (block_product m c ⟨0, hn⟩ s r)).trans ?_
    rw [Finset.sum_range_one]
    exact zero_add _
  | succ n ih =>
    have hn' : n < cfg0.N := Nat.lt_of_succ_lt hn
    refine Eq.trans ?_ (Finset.sum_range_succ _ (n + 1)).symm
    rw [← ih hn']
    by_cases h : n + 1 < 39
    · -- a middle point: the previous contents plus the block product
      refine (congrFun (accAt_middle m c ⟨n + 1, hn⟩ (Nat.succ_ne_zero n) h) (ix2 s r)).trans ?_
      refine (pay2_apply _ _ _ s r).trans ?_
      exact congrArg₂ (· + ·) rfl (block_product m c ⟨n + 1, hn⟩ s r)
    · -- the last point: the previous contents plus the masked block product
      have h39 : n + 1 = 39 := by
        have h40 : n + 1 < 40 := lt_of_lt_of_eq hn (show cfg0.N = 40 from N_0)
        omega
      refine (congrFun (accAt_last m c ⟨n + 1, hn⟩ (Nat.succ_ne_zero n) h) (ix2 s r)).trans ?_
      refine (pay3_apply _ _ _ s r).trans ?_
      exact congrArg₂ (· + ·) rfl (masked_product m c ⟨n + 1, hn⟩ h39 s r)

/-! ## The result -/

/-- the result buffer holds A·B -/
theorem result_eq (c : Dev nD) :
    (Pipeline.afterTail₀ cfgs (dats m) 0 (V0 m) [hostOps1] c main_v3 : S1024x32.Idx → EReal) = Cert.Spec.weightedRead (argA m c) (argB m c) := by
  funext i
  obtain ⟨r, s, rfl⟩ : ∃ r s, i = ix2 r s := ⟨i 0, i 1, eq_ix2 i⟩
  have h39 : (39 : ℕ) < cfg0.N := lt_of_lt_of_eq (by norm_num : (39 : ℕ) < 40) (show cfg0.N = 40 from N_0).symm
  -- result[r, s] is the accumulator's array at (s, r), which holds what the body left at the last point
  refine (result_entry m (dats m) c r s).trans ?_
  rw [accumulator_written_back (dats m) c ⟨39, h39⟩ rfl, after_acc]
  -- the sum of all forty shares is the full contraction
  refine (accAt_entry m c 39 h39 s r).trans ?_
  exact (Cert.Spec.weightedRead_eq_sum_blockShare (argA m c) (argB m c) (ix2 r s)).symm

end Cert.KernelIdeal.Hand

end
-- ==== Proof.RefSide.lean ====
import proofs.«121381_g60258391163021_cont_9to1_m_978_18_alg».proof.Defs
import proofs.«121381_g60258391163021_cont_9to1_m_978_18_alg».proof.Proof.Gen.ReferenceIdeal.Run
import proofs.«121381_g60258391163021_cont_9to1_m_978_18_alg».proof.Proof.Gen.ReferenceIdeal.Read
import proofs.«121381_g60258391163021_cont_9to1_m_978_18_alg».proof.Proof.Spec

/-!
# The reference computes the specification

The reference program is one `dot_general` contracting axis 1 of the first operand with axis 0 of the second.
At the ideal instance its entry `(r, s)` is the exact sum over the 100000 contraction entries of
`A[r, k] · B[k, s]`: the weighted read the specification states.
-/

noncomputable section

namespace Cert.ReferenceIdeal.RefValue

open Cert.ReferenceIdeal Cert.ReferenceIdeal.Gen Idealize.ShloMosaic Idealize.ShloMosaic.ValueIdx

/-- The index of the first operand that entry `i` of the result reads at contraction entry `k` is `(i 0, k)`, -/
theorem lidx_eq (i : S1024x32.Idx) (k : Fin 100000) : Read.lidx_main_v0 i k = ix2 (i 0) k :=
  funext fun a => Fin.ext (by match a with | ⟨0, _⟩ => rfl | ⟨1, _⟩ => rfl)
/-- and of the second operand `(k, i 1)`. -/
theorem ridx_eq (i : S1024x32.Idx) (k : Fin 100000) : Read.ridx_main_v0 i k = ix2 k (i 1) :=
  funext fun a => Fin.ext (by match a with | ⟨0, _⟩ => rfl | ⟨1, _⟩ => rfl)

/-- The reference's result term, at the ideal instance, is the weighted read of its two operands. -/
theorem reference_eq (x0 : (⟨S1024x100000, .f32⟩ : BufTy).Contents (Elt Ideal)) (x1 : (⟨S100000x32, .f32⟩ : BufTy).Contents (Elt Ideal)) :
    Read.val_main_v0 (F := Ideal) x0 x1 = Cert.Spec.weightedRead x0 x1 := by
  funext i
  rw [Read.val_main_v0_apply]
  unfold Cert.Spec.weightedRead
  refine Finset.sum_congr rfl fun k _ => ?_
  rw [lidx_eq, ridx_eq] <;> rfl

end Cert.ReferenceIdeal.RefValue

end
-- ==== Proof.lean ====
/-
  The weighted read of a memory bank: `out = A · B` with `A : f32[1024, 100000]` and `B : f32[100000, 32]`.

  The reference is one `dot_general`: entry `(r, s)` is the sum over the 100000 contraction entries `k` of
  `A[r, k] · B[k, s]`.

  The kernel computes the transposed product. The host transposes both operands, one pallas_call walks the
  contraction axis in forty blocks of 2560 — 39 · 2560 = 99840, so the last block overhangs the arrays and only
  its first 160 entries lie inside — keeping the (32, 1024) transposed result in one accumulator block: reset to
  zero at the first point, increased at every point by the product of the point's (32, 2560) and (2560, 1024)
  blocks, at the last point after both blocks are replaced by zero at entries 160 and above (what a staging buffer
  holds past the array's end is arbitrary, and the selects keep it out of the arithmetic). The host transposes the
  accumulator into the result.

  At the ideal instance a float is an extended real, a change of float format is the identity and a matrix
  product is an exact sum. So the accumulator's entry `(s, r)` after point `n` is the sum over the blocks
  `0 … n` of each block's share `Σ_j B[2560 t + j, s] · A[r, 2560 t + j]` (the terms with `2560 t + j ≥ 100000`
  zero), and after the last point the sum over all forty blocks, which regroups the reference's one sum over
  `k`: addition and multiplication of extended reals are commutative and associative, so no finiteness of the
  inputs is used.

  The three frames: each kernel program runs to its end without a fault and leaves the argument arrays as
  launched — the body run once in each of its three control cases (first, middle, last point), the
  accumulator's contents carried from point to point —; the reference's frame is its run with the result dropped.
  The idealized kernel is the kernel's own text read at the ideal instance (no rewrite was applied), so
  `preserves` has nothing to state.
-/
import proofs.«121381_g60258391163021_cont_9to1_m_978_18_alg».proof.Defs
import proofs.«121381_g60258391163021_cont_9to1_m_978_18_alg».proof.Proof.Gen.Kernel
import proofs.«121381_g60258391163021_cont_9to1_m_978_18_alg».proof.Proof.Gen.KernelIdeal
import proofs.«121381_g60258391163021_cont_9to1_m_978_18_alg».proof.Proof.Gen.ReferenceIdeal
import proofs.«121381_g60258391163021_cont_9to1_m_978_18_alg».proof.Proof.Gen.Pre_finite_inputs
import proofs.«121381_g60258391163021_cont_9to1_m_978_18_alg».proof.Proof.KernelFrame
import proofs.«121381_g60258391163021_cont_9to1_m_978_18_alg».proof.Proof.IdealFrame
import proofs.«121381_g60258391163021_cont_9to1_m_978_18_alg».proof.Proof.IdealValue
import proofs.«121381_g60258391163021_cont_9to1_m_978_18_alg».proof.Proof.RefSide
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments unchanged. -/
theorem frame_kernel : Cert.frame_Kernel := fun m ρ _ => Cert.Kernel.Hand.frame m ρ

/-- So does its idealization. -/
theorem frame_kernelIdeal : Cert.frame_KernelIdeal := fun m ρ _ => Cert.KernelIdeal.Hand.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten: nothing to state. -/
theorem preserves : Cert.preserves_Kernel_KernelIdeal := trivial

/-- The idealized kernel's run with its result named: the result buffer ends at the weighted read `A · B` of the
    arguments as launched — read off the frame run, whose post has every buffer the host line after the region
    leaves — and the arguments unchanged. -/
theorem kernelIdeal_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v3) = Cert.Spec.weightedRead (Cert.KernelIdeal.Hand.argA m c) (Cert.KernelIdeal.Hand.argB m c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) :=
  (θ_run Cert.KernelIdeal.defs _ _).mono (fun _ h c =>
    ⟨((h c).2 Cert.KernelIdeal.main_v3 (Pipeline.mem_restRefs_of Cert.KernelIdeal.main_v3 (by decide) (by decide))).trans (Cert.KernelIdeal.Hand.result_eq m c),
     ((h c).2 Cert.KernelIdeal.main_arg0 (Pipeline.mem_restRefs_of Cert.KernelIdeal.main_arg0 (by decide) (by decide))).trans
       (Cert.KernelIdeal.Gen.W_main_arg0 m (Cert.KernelIdeal.Hand.dats m) c),
     ((h c).2 Cert.KernelIdeal.main_arg1 (Pipeline.mem_restRefs_of Cert.KernelIdeal.main_arg1 (by decide) (by decide))).trans
       (Cert.KernelIdeal.Gen.W_main_arg1 m (Cert.KernelIdeal.Hand.dats m) c)⟩)
    (Cert.KernelIdeal.Hand.run_main m ρ)

/-- From memories that agree on the arguments both idealized programs end with the weighted read of those
    arguments in their result buffers: the kernel by its accumulated block sums, the reference by its one sum. -/
theorem algebraic : Cert.algebraic_KernelIdeal_ReferenceIdeal := by
  intro m ρ m' ρ' _ hagree
  refine ⟨fun c => Cert.Spec.weightedRead (Cert.KernelIdeal.Hand.argA m c) (Cert.KernelIdeal.Hand.argB m c), kernelIdeal_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v0_eq]
  exact Cert.ReferenceIdeal.RefValue.reference_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
